-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S1000x512 : Shape := ⟨2, ![1000, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_

variable [Facts]

def fn {F : FTy → Type} [FloatOps F] (main_arg0 : FVec F S131072x512 .f32) (main_arg1 : FVec F S1000x512 .f32) (main_arg2 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  main_v8
-- ==== Kernel.lean ====
abbrev S131072x512 : Shape := ⟨2, ![131072, 512]⟩
abbrev S1000x512 : Shape := ⟨2, ![1000, 512]⟩
abbrev S131072 : Shape := ⟨1, ![131072]⟩
abbrev S1x1 : Shape := ⟨2, ![1, 1]⟩
abbrev S1000 : Shape := ⟨1, ![1000]⟩
abbrev S1000x1 : Shape := ⟨2, ![1000, 1]⟩
abbrev S512x1000 : Shape := ⟨2, ![512, 1000]⟩
abbrev S1000x1000 : Shape := ⟨2, ![1000, 1000]⟩
abbrev S1x1000 : Shape := ⟨2, ![1, 1000]⟩
abbrev S1 : Shape := ⟨1, ![1]⟩
abbrev S_ : Shape := ⟨0, ![]⟩
abbrev S131072x1 : Shape := ⟨2, ![131072, 1]⟩
abbrev S16x1000 : Shape := ⟨2, ![16, 1000]⟩
abbrev S2048x512 : Shape := ⟨2, ![2048, 512]⟩
abbrev S2048x1 : Shape := ⟨2, ![2048, 1]⟩
abbrev S8x1000 : Shape := ⟨2, ![8, 1000]⟩
abbrev S2048 : Shape := ⟨1, ![2048]⟩
abbrev S2048x1000 : Shape := ⟨2, ![2048, 1000]⟩
abbrev S2x8x1000 : Shape := ⟨3, ![2, 8, 1000]⟩

abbrev nBuf : Space → Nat
  | .hbm => 37
  | .vmem => 12
  | .smem => 0
  | _ => 0

abbrev bufTy : (tb : Table) → Fin (tcTables nBuf tb) → BufTy
  | .hbm, ⟨0, _⟩ => ⟨S131072x512, .f32⟩
  | .hbm, ⟨1, _⟩ => ⟨S1000x512, .f32⟩
  | .hbm, ⟨2, _⟩ => ⟨S131072, .i32⟩
  | .hbm, ⟨3, _⟩ => ⟨S1000x512, .bf16⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S131072x1, .i32⟩
  | .hbm, ⟨9, _⟩ => ⟨S16x1000, .f32⟩
  | .hbm, ⟨10, _⟩ => ⟨S16x1000, .f32⟩
  | .hbm, ⟨11, _⟩ => ⟨S2x8x1000, .f32⟩
  | .hbm, ⟨12, _⟩ => ⟨S_, .f32⟩
  | .hbm, ⟨13, _⟩ => ⟨S1000, .f32⟩
  | .hbm, ⟨14, _⟩ => ⟨S2x8x1000, .f32⟩
  | .hbm, ⟨15, _⟩ => ⟨S_, .f32⟩
  | .hbm, ⟨16, _⟩ => ⟨S1000, .f32⟩
  | .hbm, ⟨17, _⟩ => ⟨S_, .f32⟩
  | .hbm, ⟨18, _⟩ => ⟨S1000, .f32⟩
  | .hbm, ⟨19, _⟩ => ⟨S1000, .i1⟩
  | .hbm, ⟨20, _⟩ => ⟨S_, .f32⟩
  | .hbm, ⟨21, _⟩ => ⟨S1000, .f32⟩
  | .hbm, ⟨22, _⟩ => ⟨S1000, .f32⟩
  | .hbm, ⟨23, _⟩ => ⟨S1000, .f32⟩
  | .hbm, ⟨24, _⟩ => ⟨S_, .f32⟩
  | .hbm, ⟨25, _⟩ => ⟨S_, .f32⟩
  | .hbm, ⟨26, _⟩ => ⟨S1000, .f32⟩
  | .hbm, ⟨27, _⟩ => ⟨S1000, .f32⟩
  | .hbm, ⟨28, _⟩ => ⟨S_, .f32⟩
  | .hbm, ⟨29, _⟩ => ⟨S_, .f32⟩
  | .hbm, ⟨30, _⟩ => ⟨S1000, .i32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1000x512, .f32⟩
  | .local _ .vmem, ⟨1, _⟩ => ⟨S1000x512, .bf16⟩
  | .local _ .vmem, ⟨2, _⟩ => ⟨S1x1, .f32⟩
  | .local _ .vmem, ⟨3, _⟩ => ⟨S2048x512, .f32⟩
  | .local _ .vmem, ⟨4, _⟩ => ⟨S2048x512, .f32⟩
  | .local _ .vmem, ⟨5, _⟩ => ⟨S1000x512, .bf16⟩
  | .local _ .vmem, ⟨6, _⟩ => ⟨S2048x1, .i32⟩
  | .local _ .vmem, ⟨7, _⟩ => ⟨S2048x1, .i32⟩
  | .local _ .vmem, ⟨8, _⟩ => ⟨S8x1000, .f32⟩
  | .local _ .vmem, ⟨9, _⟩ => ⟨S8x1000, .f32⟩
  | .local _ .vmem, ⟨10, _⟩ => ⟨S8x1000, .f32⟩
  | .local _ .vmem, ⟨11, _⟩ => ⟨S8x1000, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1000x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x1000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x1000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1000x512_S1000x512_0_0 : ∀ a, (![0, 0] : Fin 2 → Nat) a + S1000x512.size a ≤ S1000x512.size a
  h_S1000x512 : 0 < S1000x512.numel
  reduces_S1000x512_S1000 : S1000x512.Reduces [1] S1000
  shapeCasts_S1000_S1000x1 : S1000.ShapeCasts S1000x1
  broadcasts_S1000x1_S1000x512 : S1000x1.Broadcasts S1000x512
  bitsLt_bf16_f32 : FTy.bits .bf16 < FTy.bits .f32
  packedbf16_S1000x512_S1000x512_0_0 : (Rect.unit (s := S1000x512) ![0, 0] S1000x512.size inb_S1000x512_S1000x512_0_0).PackedRows (EltTy.packing .bf16)
  transposes_S1000x512_p1_0_S512x1000 : S1000x512.Transposes [1, 0] S512x1000
  transposes_S1000x1_p1_0_S1x1000 : S1000x1.Transposes [1, 0] S1x1000
  broadcasts_S1000x1_S1000x1000 : S1000x1.Broadcasts S1000x1000
  broadcasts_S1x1000_S1000x1000 : S1x1000.Broadcasts S1000x1000
  iota_S1000x1000_d0_w32 : S1000x1000.Iotas .tc 32 [0]
  iota_S1000x1000_d1_w32 : S1000x1000.Iotas .tc 32 [1]
  natLt_1_32 : 1 < 32
  reduces_S1000x1000_S1000 : S1000x1000.Reduces [1] S1000
  reduces_S1000x1_S1 : S1000x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  shapeCasts_S131072_S131072x1 : S131072.ShapeCasts S131072x1
  inb_S8x1000_S8x1000_0_0 : ∀ a, (![0, 0] : Fin 2 → Nat) a + S8x1000.size a ≤ S8x1000.size a
  h_S8x1000 : 0 < S8x1000.numel
  inb_S2048x512_S2048x512_0_0 : ∀ a, (![0, 0] : Fin 2 → Nat) a + S2048x512.size a ≤ S2048x512.size a
  h_S2048x512 : 0 < S2048x512.numel
  shapeCasts_S1000x512_S1000x512 : S1000x512.ShapeCasts S1000x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x512_S2048 : S2048x512.Reduces [1] S2048
  shapeCasts_S2048_S2048x1 : S2048.ShapeCasts S2048x1
  broadcasts_S2048x1_S2048x512 : S2048x1.Broadcasts S2048x512
  iota_S2048x1000_d1_w32 : S2048x1000.Iotas .tc 32 [1]
  broadcasts_S2048x1_S2048x1000 : S2048x1.Broadcasts S2048x1000
  reduces_S2048x1000_S1000 : S2048x1000.Reduces [0] S1000
  shapeCasts_S1000_S1x1000 : S1000.ShapeCasts S1x1000
  inb_S8x1000_S1x1000_0_0 : ∀ a, (![0, 0] : Fin 2 → Nat) a + S1x1000.size a ≤ S8x1000.size a
  h_S1x1000 : 0 < S1x1000.numel
  shapeCasts_S1x1000_S1x1000 : S1x1000.ShapeCasts S1x1000
  shapeCasts_S16x1000_S2x8x1000 : S16x1000.ShapeCasts S2x8x1000
  reducesTo_S2x8x1000_S1000_d0_1 : S2x8x1000.ReducesTo [0, 1] S1000
  h_S_ : 0 < S_.numel
  bcast_S_S1000 : S_.BroadcastsInDim S1000 (![] : Fin 0 → Fin S1000.rank)
  reducesTo_S1000_S_d0 : S1000.ReducesTo [0] S_
  dot_S1000x512_S512x1000_S1000x1000_1_0_0_1_n_n_wf : DotDims.WF S1000x512 S512x1000 S1000x1000 [1] [0] [0] [1] [] []
  dot_S2048x1000_S1000x512_S2048x512_1_0_0_1_n_n_wf : DotDims.WF S2048x1000 S1000x512 S2048x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S1000x512.size a
  hwx0_0 : ∀ i : grid0.Coords, EltTy.bits .f32 = 32 ∨ (Rect.block (s := S1000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S1000x512.size a
  hwx0_1 : ∀ i : grid0.Coords, EltTy.bits .bf16 = 32 ∨ (Rect.block (s := S1000x512) S1000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S131072x512.size a
  hwx1_0 : ∀ i : grid1.Coords, EltTy.bits .f32 = 32 ∨ (Rect.block (s := S131072x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S1000x512.size a
  hwx1_1 : ∀ i : grid1.Coords, EltTy.bits .bf16 = 32 ∨ (Rect.block (s := S1000x512) S1000x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S131072x1.size a
  hwx1_2 : ∀ i : grid1.Coords, EltTy.bits .i32 = 32 ∨ (Rect.block (s := S131072x1) S2048x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x1000.size a ≤ S16x1000.size a
  hwx1_3 : ∀ i : grid1.Coords, EltTy.bits .f32 = 32 ∨ (Rect.block (s := S16x1000) S8x1000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x1000.size a ≤ S16x1000.size a
  hwx1_4 : ∀ i : grid1.Coords, EltTy.bits .f32 = 32 ∨ (Rect.block (s := S16x1000) S8x1000.size (cc1_transform_4 i) (hinb1_4 i)).WholeWords (EltTy.packing .f32)

variable [Facts₀]

def dot_S1000x512_S512x1000_S1000x1000_1_0_0_1_n_n : DotDims S1000x512 S512x1000 S1000x1000 where
  lhsContracting := [1]
  rhsContracting := [0]
  lhsNonContracting := [0]
  rhsNonContracting := [1]
  lhsBatch := []
  rhsBatch := []
  wf := dot_S1000x512_S512x1000_S1000x1000_1_0_0_1_n_n_wf
def dot_S2048x1000_S1000x512_S2048x512_1_0_0_1_n_n : DotDims S2048x1000 S1000x512 S2048x512 where
  lhsContracting := [1]
  rhsContracting := [0]
  lhsNonContracting := [0]
  rhsNonContracting := [1]
  lhsBatch := []
  rhsBatch := []
  wf := dot_S2048x1000_S1000x512_S2048x512_1_0_0_1_n_n_wf

abbrev win0_0 : Pipeline.Window sig grid0 :=
  Pipeline.Window.ofSpec (Memref.whole main_arg1) S1000x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1000x512.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S8x1000.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S8x1000.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S131072x512 : Shape := ⟨2, ![131072, 512]⟩
abbrev S1000x512 : Shape := ⟨2, ![1000, 512]⟩
abbrev S131072 : Shape := ⟨1, ![131072]⟩
abbrev S_ : Shape := ⟨0, ![]⟩
abbrev S1000 : Shape := ⟨1, ![1000]⟩
abbrev S1000x1 : Shape := ⟨2, ![1000, 1]⟩
abbrev S1x1000 : Shape := ⟨2, ![1, 1000]⟩
abbrev S1000x1000 : Shape := ⟨2, ![1000, 1000]⟩
abbrev S512x1000 : Shape := ⟨2, ![512, 1000]⟩
abbrev S131072x1 : Shape := ⟨2, ![131072, 1]⟩

abbrev nBuf : Space → Nat
  | .hbm => 113
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S1000x512, .f32⟩
  | .hbm, ⟨2, _⟩ => ⟨S131072, .i32⟩
  | .hbm, ⟨3, _⟩ => ⟨S1000x512, .f32⟩
  | .hbm, ⟨4, _⟩ => ⟨S_, .f32⟩
  | .hbm, ⟨5, _⟩ => ⟨S1000, .f32⟩
  | .hbm, ⟨6, _⟩ => ⟨S1000x1, .f32⟩
  | .hbm, ⟨7, _⟩ => ⟨S1000x1, .f32⟩
  | .hbm, ⟨8, _⟩ => ⟨S1000x512, .f32⟩
  | .hbm, ⟨9, _⟩ => ⟨S1000x512, .f32⟩
  | .hbm, ⟨10, _⟩ => ⟨S1000x512, .f32⟩
  | .hbm, ⟨11, _⟩ => ⟨S_, .f32⟩
  | .hbm, ⟨12, _⟩ => ⟨S1000, .f32⟩
  | .hbm, ⟨13, _⟩ => ⟨S1000x1, .f32⟩
  | .hbm, ⟨14, _⟩ => ⟨S1x1000, .f32⟩
  | .hbm, ⟨15, _⟩ => ⟨S1000x1000, .f32⟩
  | .hbm, ⟨16, _⟩ => ⟨S1000x1000, .f32⟩
  | .hbm, ⟨17, _⟩ => ⟨S1000x1000, .f32⟩
  | .hbm, ⟨18, _⟩ => ⟨S512x1000, .f32⟩
  | .hbm, ⟨19, _⟩ => ⟨S1000x1000, .f32⟩
  | .hbm, ⟨20, _⟩ => ⟨S_, .f32⟩
  | .hbm, ⟨21, _⟩ => ⟨S1000x1000, .f32⟩
  | .hbm, ⟨22, _⟩ => ⟨S1000x1000, .f32⟩
  | .hbm, ⟨23, _⟩ => ⟨S1000x1000, .f32⟩
  | .hbm, ⟨24, _⟩ => ⟨S_, .f32⟩
  | .hbm, ⟨25, _⟩ => ⟨S1000x1000, .f32⟩
  | .hbm, ⟨26, _⟩ => ⟨S1000x1000, .f32⟩
  | .hbm, ⟨27, _⟩ => ⟨S_, .i1⟩
  | .hbm, ⟨28, _⟩ => ⟨S1000x1000, .i1⟩
  | .hbm, ⟨29, _⟩ => ⟨S1000x1000, .i32⟩
  | .hbm, ⟨30, _⟩ => ⟨S_, .i32⟩
  | .hbm, ⟨31, _⟩ => ⟨S1000x1000, .i32⟩
  | .hbm, ⟨32, _⟩ => ⟨S1000x1000, .i32⟩
  | .hbm, ⟨33, _⟩ => ⟨S1000x1000, .i32⟩
  | .hbm, ⟨34, _⟩ => ⟨S1000x1000, .i1⟩
  | .hbm, ⟨35, _⟩ => ⟨S_, .i1⟩
  | .hbm, ⟨36, _⟩ => ⟨S1000x1000, .i1⟩
  | .hbm, ⟨37, _⟩ => ⟨S1000x1000, .i1⟩
  | .hbm, ⟨38, _⟩ => ⟨S_, .f32⟩
  | .hbm, ⟨39, _⟩ => ⟨S1000x1000, .f32⟩
  | .hbm, ⟨40, _⟩ => ⟨S1000x1000, .i1⟩
  | .hbm, ⟨41, _⟩ => ⟨S1000x1000, .i1⟩
  | .hbm, ⟨42, _⟩ => ⟨S_, .f32⟩
  | .hbm, ⟨43, _⟩ => ⟨S_, .f32⟩
  | .hbm, ⟨44, _⟩ => ⟨S1000x1000, .f32⟩
  | .hbm, ⟨45, _⟩ => ⟨S1000x1000, .f32⟩
  | .hbm, ⟨46, _⟩ => ⟨S_, .f32⟩
  | .hbm, ⟨47, _⟩ => ⟨S1000x1000, .f32⟩
  | .hbm, ⟨48, _⟩ => ⟨S1000x1000, .f32⟩
  | .hbm, ⟨49, _⟩ => ⟨S_, .f32⟩
  | .hbm, ⟨50, _⟩ => ⟨S_, .f32⟩
  | .hbm, ⟨51, _⟩ => ⟨S1000x1000, .f32⟩
  | .hbm, ⟨52, _⟩ => ⟨S1000x1000, .f32⟩
  | .hbm, ⟨53, _⟩ => ⟨S_, .f32⟩
  | .hbm, ⟨54, _⟩ => ⟨S_, .f32⟩
  | .hbm, ⟨55, _⟩ => ⟨S1000x1000, .i32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S_, .f32⟩
  | .hbm, ⟨60, _⟩ => ⟨S131072x512, .f32⟩
  | .hbm, ⟨61, _⟩ => ⟨S_, .f32⟩
  | .hbm, ⟨62, _⟩ => ⟨S131072, .f32⟩
  | .hbm, ⟨63, _⟩ => ⟨S131072x1, .f32⟩
  | .hbm, ⟨64, _⟩ => ⟨S131072x1, .f32⟩
  | .hbm, ⟨65, _⟩ => ⟨S131072x512, .f32⟩
  | .hbm, ⟨66, _⟩ => ⟨S131072x512, .f32⟩
  | .hbm, ⟨67, _⟩ => ⟨S_, .i32⟩
  | .hbm, ⟨68, _⟩ => ⟨S131072, .i32⟩
  | .hbm, ⟨69, _⟩ => ⟨S131072, .i1⟩
  | .hbm, ⟨70, _⟩ => ⟨S_, .i32⟩
  | .hbm, ⟨71, _⟩ => ⟨S131072, .i32⟩
  | .hbm, ⟨72, _⟩ => ⟨S131072, .i32⟩
  | .hbm, ⟨73, _⟩ => ⟨S131072, .i32⟩
  | .hbm, ⟨74, _⟩ => ⟨S131072x1, .i32⟩
  | .hbm, ⟨75, _⟩ => ⟨S131072x512, .f32⟩
  | .hbm, ⟨76, _⟩ => ⟨S131072x512, .f32⟩
  | .hbm, ⟨77, _⟩ => ⟨S131072x512, .f32⟩
  | .hbm, ⟨78, _⟩ => ⟨S_, .f32⟩
  | .hbm, ⟨79, _⟩ => ⟨S131072, .f32⟩
  | .hbm, ⟨80, _⟩ => ⟨S131072, .f32⟩
  | .hbm, ⟨81, _⟩ => ⟨S_, .f32⟩
  | .hbm, ⟨82, _⟩ => ⟨S131072, .f32⟩
  | .hbm, ⟨83, _⟩ => ⟨S_, .f32⟩
  | .hbm, ⟨84, _⟩ => ⟨S1000, .f32⟩
  | .hbm, ⟨85, _⟩ => ⟨S131072x1, .i32⟩
  | .hbm, ⟨86, _⟩ => ⟨S1000, .f32⟩
  | .hbm, ⟨87, _⟩ => ⟨S_, .f32⟩
  | .hbm, ⟨88, _⟩ => ⟨S1000, .f32⟩
  | .hbm, ⟨89, _⟩ => ⟨S131072x1, .i32⟩
  | .hbm, ⟨90, _⟩ => ⟨S1000, .f32⟩
  | .hbm, ⟨91, _⟩ => ⟨S_, .f32⟩
  | .hbm, ⟨92, _⟩ => ⟨S1000, .f32⟩
  | .hbm, ⟨93, _⟩ => ⟨S1000, .i1⟩
  | .hbm, ⟨94, _⟩ => ⟨S_, .f32⟩
  | .hbm, ⟨95, _⟩ => ⟨S1000, .f32⟩
  | .hbm, ⟨96, _⟩ => ⟨S1000, .f32⟩
  | .hbm, ⟨97, _⟩ => ⟨S1000, .f32⟩
  | .hbm, ⟨98, _⟩ => ⟨S_, .f32⟩
  | .hbm, ⟨99, _⟩ => ⟨S_, .f32⟩
  | .hbm, ⟨100, _⟩ => ⟨S1000, .f32⟩
  | .hbm, ⟨101, _⟩ => ⟨S1000, .f32⟩
  | .hbm, ⟨102, _⟩ => ⟨S_, .f32⟩
  | .hbm, ⟨103, _⟩ => ⟨S_, .f32⟩
  | .hbm, ⟨104, _⟩ => ⟨S1000, .i32⟩
  | .hbm, ⟨105, _⟩ => ⟨S_, .i32⟩
  | .hbm, ⟨106, _⟩ => ⟨S_, .i32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_0 : Ref sig .tc := ⟨.hbm, 35, rfl⟩
abbrev main_call1_v5 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_call2_v0 : Ref sig .tc := ⟨.hbm, 43, rfl⟩
abbrev main_call2_v1 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_cst_5 : Ref sig .tc := ⟨.hbm, 49, rfl⟩
abbrev main_call3_v0 : Ref sig .tc := ⟨.hbm, 50, rfl⟩
abbrev main_call3_v1 : Ref sig .tc := ⟨.hbm, 51, rfl⟩
abbrev main_v25 : Ref sig .tc := ⟨.hbm, 52, rfl⟩
abbrev main_cst_6 : Ref sig .tc := ⟨.hbm, 53, rfl⟩
abbrev main_v26 : Ref sig .tc := ⟨.hbm, 54, rfl⟩
abbrev main_v27 : Ref sig .tc := ⟨.hbm, 55, rfl⟩
abbrev main_c_7 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_call4_v0 : Ref sig .tc := ⟨.hbm, 60, rfl⟩
abbrev main_call4_cst : Ref sig .tc := ⟨.hbm, 61, rfl⟩
abbrev main_call4_v1 : Ref sig .tc := ⟨.hbm, 62, rfl⟩
abbrev main_call4_v2 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_8 : Ref sig .tc := ⟨.hbm, 67, rfl⟩
abbrev main_v34 : Ref sig .tc := ⟨.hbm, 68, rfl⟩
abbrev main_v35 : Ref sig .tc := ⟨.hbm, 69, rfl⟩
abbrev main_c_9 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_call5_v0 : Ref sig .tc := ⟨.hbm, 77, rfl⟩
abbrev main_call5_cst : Ref sig .tc := ⟨.hbm, 78, rfl⟩
abbrev main_call5_v1 : Ref sig .tc := ⟨.hbm, 79, rfl⟩
abbrev main_v42 : Ref sig .tc := ⟨.hbm, 80, rfl⟩
abbrev main_cst_10 : Ref sig .tc := ⟨.hbm, 81, rfl⟩
abbrev main_v43 : Ref sig .tc := ⟨.hbm, 82, rfl⟩
abbrev main_cst_11 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_12 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_13 : Ref sig .tc := ⟨.hbm, 91, rfl⟩
abbrev main_v50 : Ref sig .tc := ⟨.hbm, 92, rfl⟩
abbrev main_v51 : Ref sig .tc := ⟨.hbm, 93, rfl⟩
abbrev main_cst_14 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_15 : Ref sig .tc := ⟨.hbm, 98, rfl⟩
abbrev main_call6_v0 : Ref sig .tc := ⟨.hbm, 99, rfl⟩
abbrev main_call6_v1 : Ref sig .tc := ⟨.hbm, 100, rfl⟩
abbrev main_v55 : Ref sig .tc := ⟨.hbm, 101, rfl⟩
abbrev main_cst_16 : Ref sig .tc := ⟨.hbm, 102, rfl⟩
abbrev main_v56 : Ref sig .tc := ⟨.hbm, 103, rfl⟩
abbrev main_v57 : Ref sig .tc := ⟨.hbm, 104, rfl⟩
abbrev main_c_17 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_18 : Ref sig .tc := ⟨.hbm, 109, rfl⟩
abbrev main_v61 : Ref sig .tc := ⟨.hbm, 110, rfl⟩
abbrev main_cst_19 : Ref sig .tc := ⟨.hbm, 111, rfl⟩
abbrev main_v62 : Ref sig .tc := ⟨.hbm, 112, rfl⟩

abbrev nD : Nat := 1
abbrev τ : Topo := Topo.v7x

variable {F : FTy → Type} [FloatOps F]

class Facts₀ : Prop where
  reducesTo_S1000x512_S1000_d1 : S1000x512.ReducesTo [1] S1000
  h_S_ : 0 < S_.numel
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  bcast_S1000_S1x1000_1 : S1000.BroadcastsInDim S1x1000 (![1] : Fin 1 → Fin S1x1000.rank)
  bcast_S1000x1_S1000x1000_0_1 : S1000x1.BroadcastsInDim S1000x1000 (![0, 1] : Fin 2 → Fin S1000x1000.rank)
  bcast_S1x1000_S1000x1000_0_1 : S1x1000.BroadcastsInDim S1000x1000 (![0, 1] : Fin 2 → Fin S1000x1000.rank)
  transposes_S1000x512_S512x1000_1_0 : S1000x512.Transposes [1, 0] S512x1000
  bcast_S_S1000x1000 : S_.BroadcastsInDim S1000x1000 (![] : Fin 0 → Fin S1000x1000.rank)
  reducesTo_S1000x1000_S_d0_1 : S1000x1000.ReducesTo [0, 1] S_
  natLt_1_32 : 1 < 32
  reducesTo_S131072x512_S131072_d1 : S131072x512.ReducesTo [1] S131072
  bcast_S131072_S131072x1_0 : S131072.BroadcastsInDim S131072x1 (![0] : Fin 1 → Fin S131072x1.rank)
  bcast_S131072x1_S131072x512_0_1 : S131072x1.BroadcastsInDim S131072x512 (![0, 1] : Fin 2 → Fin S131072x512.rank)
  bcast_S_S131072 : S_.BroadcastsInDim S131072 (![] : Fin 0 → Fin S131072.rank)
  bcast_S_S1000 : S_.BroadcastsInDim S1000 (![] : Fin 0 → Fin S1000.rank)
  reducesTo_S1000_S_d0 : S1000.ReducesTo [0] S_
  dot_S1000x512_S512x1000_S1000x1000_1_0_0_1_n_n_wf : DotDims.WF S1000x512 S512x1000 S1000x1000 [1] [0] [0] [1] [] []
  gather_S1000x512_S131072x1_S131072x512_1_0_n_n_0_1_1512_wf : GatherDims.WF S1000x512 S131072x1 S131072x512 [1] [0] [] [0] [] 1 ![1, 512]
  scatter_S1000_S131072x1_S131072_n_0_0_1_wf : ScatterDims.WF S1000 S131072x1 S131072 [] [0] [0] 1

variable [Facts₀]

def dot_S1000x512_S512x1000_S1000x1000_1_0_0_1_n_n : DotDims S1000x512 S512x1000 S1000x1000 where
  lhsContracting := [1]
  rhsContracting := [0]
  lhsNonContracting := [0]
  rhsNonContracting := [1]
  lhsBatch := []
  rhsBatch := []
  wf := dot_S1000x512_S512x1000_S1000x1000_1_0_0_1_n_n_wf
def gather_S1000x512_S131072x1_S131072x512_1_0_n_n_0_1_1512 : GatherDims S1000x512 S131072x1 S131072x512 where
  offsetDims := [1]
  collapsedSliceDims := [0]
  operandBatchingDims := []
  startIndicesBatchingDims := []
  startIndexMap := [0]
  indexVectorDim := 1
  sliceSizes := ![1, 512]
  wf := gather_S1000x512_S131072x1_S131072x512_1_0_n_n_0_1_1512_wf
def scatter_S1000_S131072x1_S131072_n_0_0_1 : ScatterDims S1000 S131072x1 S131072 where
  updateWindowDims := []
  insertedWindowDims := [0]
  scatterDimsToOperandDims := [0]
  indexVectorDim := 1
  wf := scatter_S1000_S131072x1_S131072_n_0_0_1_wf

class Facts : Prop extends Facts₀ where

variable [Facts]
-- ==== Proof.Spec.lean ====
/-
  The quantities both programs compute, as functions of the three argument arrays, over literal index types.

  A class-weight matrix cl (1000 x 512) and a feature matrix x (131072 x 512) are each divided, row by row, by the row's
  Euclidean length. From the normalised weights: the squared distance d2 i j between rows i and j (clamped at zero), the
  pairs (i, j) with i < j and d2 i j > 0, and the mean of 1 / d2 over those pairs. From the features and the labels T: for
  every class q the number of samples labelled q and the sum over those samples of the distance between the sample's
  normalised row and the class's normalised weight row.

  Every sum here is a finite sum in the extended reals, a commutative monoid under addition: the two programs add the same
  terms in different orders, and that is all that separates them.
-/
import Idealize.ShloMosaic.PureOps.Ideal.Laws
import Idealize.ShloMosaic.Lib.ValueIdx

noncomputable section

open scoped BigOperators

namespace Hug

open Idealize.ShloMosaic Idealize.ShloMosaic.ValueIdx

/-- A matrix of extended reals with m rows and k columns. -/
abbrev Mat (m k : ℕ) : Type := (⟨2, ![m, k]⟩ : Shape).Idx → EReal

/-- The three float words the programs spell: 0, 1 and 2. -/
abbrev zeroF : EReal := Ideal.ofBits .f32 0x00000000#32
abbrev oneF : EReal := Ideal.ofBits .f32 0x3F800000#32
abbrev twoF : EReal := Ideal.ofBits .f32 0x40000000#32

/-- Entry (r, j) of x divided by the Euclidean length of row r. -/
def unit {m k : ℕ} (x : Mat m k) (r : Fin m) (j : Fin k) : EReal :=
  Ideal.div (x (ix2 r j)) (Ideal.sqrt (∑ c : Fin k, x (ix2 r c) * x (ix2 r c)))

/-! ## The weight term -/

/-- The squared length of normalised row i. -/
def sqN (cl : Mat 1000 512) (i : Fin 1000) : EReal := ∑ k : Fin 512, unit cl i k * unit cl i k

/-- The inner product of normalised rows i and j. -/
def gram (cl : Mat 1000 512) (i j : Fin 1000) : EReal := ∑ k : Fin 512, unit cl i k * unit cl j k

/-- The squared distance between normalised rows i and j, clamped below at zero. -/
def d2 (cl : Mat 1000 512) (i j : Fin 1000) : EReal := max (sqN cl i + sqN cl j - twoF * gram cl i j) zeroF

/-- The pairs that count: strictly above the diagonal and at a positive squared distance. -/
def Far (cl : Mat 1000 512) (i j : Fin 1000) : Prop := i.val < j.val ∧ Ideal.cmp .ogt (d2 cl i j) zeroF = 1#1

open Classical in
/-- The reciprocal squared distance of a pair that counts, zero elsewhere. -/
def inv (cl : Mat 1000 512) (i j : Fin 1000) : EReal := if Far cl i j then Ideal.div oneF (d2 cl i j) else zeroF

/-- The sum of the reciprocal squared distances, row by row. -/
def wwNum (cl : Mat 1000 512) : EReal := ∑ i : Fin 1000, ∑ j : Fin 1000, inv cl i j

open Classical in
/-- The number of pairs that count, as an extended real. -/
def wwDen (cl : Mat 1000 512) : EReal := ∑ i : Fin 1000, ∑ j : Fin 1000, if Far cl i j then (1 : EReal) else 0

open Classical in
/-- The same number as a natural number. -/
def wwCnt (cl : Mat 1000 512) : ℕ := ∑ i : Fin 1000, ∑ j : Fin 1000, if Far cl i j then 1 else 0

/-- The weight term: the mean reciprocal squared distance, times the unit weight. -/
def weightWise (cl : Mat 1000 512) : EReal := Ideal.div (wwNum cl) (wwDen cl) * oneF

/-! ## The sample term: per class, how many samples and their summed distances -/

/-- Sample n carries label q. -/
def Hit (T : (⟨1, ![131072]⟩ : Shape).Idx → BitVec 32) (n : Fin 131072) (q : Fin 1000) : Prop :=
  T (ix1 n) = BitVec.ofNat 32 q.val

/-- The distance between sample n's normalised row and class q's normalised weight row. -/
def dist (x : Mat 131072 512) (cl : Mat 1000 512) (n : Fin 131072) (q : Fin 1000) : EReal :=
  Ideal.sqrt (∑ d : Fin 512, (unit x n d - unit cl q d) * (unit x n d - unit cl q d))

open Classical in
/-- The number of samples labelled q. -/
def counts (T : (⟨1, ![131072]⟩ : Shape).Idx → BitVec 32) (q : Fin 1000) : EReal :=
  ∑ n : Fin 131072, if Hit T n q then (1 : EReal) else 0

open Classical in
/-- The summed distances of the samples labelled q. -/
def sums (x : Mat 131072 512) (cl : Mat 1000 512) (T : (⟨1, ![131072]⟩ : Shape).Idx → BitVec 32) (q : Fin 1000) : EReal :=
  ∑ n : Fin 131072, if Hit T n q then dist x cl n q else 0

/-! ## The same two sums over one block of 2048 samples -/

open Classical in
/-- The number of the block's samples labelled q. -/
def pcount (tg : (⟨2, ![2048, 1]⟩ : Shape).Idx → BitVec 32) (q : Fin 1000) : EReal :=
  ∑ n : Fin 2048, if tg (ix2 n (0 : Fin 1)) = BitVec.ofNat 32 q.val then (1 : EReal) else 0

/-- The distance between the block's sample n (normalised) and row q of an already normalised weight table. -/
def bdist (x : Mat 2048 512) (wb : Mat 1000 512) (n : Fin 2048) (q : Fin 1000) : EReal :=
  Ideal.sqrt (∑ d : Fin 512, (unit x n d - wb (ix2 q d)) * (unit x n d - wb (ix2 q d)))

open Classical in
/-- The summed distances of the block's samples labelled q. -/
def psum (x : Mat 2048 512) (wb : Mat 1000 512) (tg : (⟨2, ![2048, 1]⟩ : Shape).Idx → BitVec 32) (q : Fin 1000) : EReal :=
  ∑ n : Fin 2048, if tg (ix2 n (0 : Fin 1)) = BitVec.ofNat 32 q.val then bdist x wb n q else 0

/-- Row 2048 t + n of the whole array, as the index of a sample. -/
def rowOf (t : Fin 64) (n : Fin 2048) : Fin 131072 := ⟨2048 * t.val + n.val, by have := t.isLt; have := n.isLt; omega⟩

/-- Block t of the labels, as a column of 2048. -/
def blkT (T : (⟨1, ![131072]⟩ : Shape).Idx → BitVec 32) (t : Fin 64) : (⟨2, ![2048, 1]⟩ : Shape).Idx → BitVec 32 :=
  fun j => T (ix1 (rowOf t (j 0)))

/-- Block t of the features: rows 2048 t to 2048 t + 2047. -/
def blkX (x : Mat 131072 512) (t : Fin 64) : Mat 2048 512 := fun j => x (ix2 (rowOf t (j 0)) (j 1))

/-- The normalised weight table as a matrix. -/
def unitMat (cl : Mat 1000 512) : Mat 1000 512 := fun j => unit cl (j 0) (j 1)

end Hug

end
-- ==== Proof.SpecAlg.lean ====
/-
  The arithmetic between the two ways of adding up: a sum over 131072 samples is the sum over 64 blocks of the sums over
  each block's 2048 samples; a sum of zeros and ones is the number of ones; and the float words 0 and 1 are 0 and 1.
-/
import proofs.«416468_j35811437314877_2_alg».proof.Proof.Spec

noncomputable section

open scoped BigOperators

namespace Hug

open Idealize.ShloMosaic Idealize.ShloMosaic.ValueIdx

/-- The real-to-extended-real cast goes through a finite sum. -/
theorem coe_sum_real {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A sum over Fin N with N = m * n is the double sum over the quotient a and the remainder b of the index n * a + b. -/
theorem sum_fin_mul (m n N : ℕ) (h : m * n = N) (f : Fin N → EReal) :
    ∑ i : Fin N, f i = ∑ a : Fin m, ∑ b : Fin n, f ⟨n * a.val + b.val, by
      have ha := a.isLt; have hb := b.isLt; subst h
      calc n * a.val + b.val < n * a.val + n := by omega
        _ = n * (a.val + 1) := by ring
        _ ≤ n * m := Nat.mul_le_mul_left _ (by omega)
        _ = m * n := Nat.mul_comm _ _⟩ := by
  subst h
  rw [← Equiv.sum_comp finProdFinEquiv f, Fintype.sum_prod_type]
  refine Finset.sum_congr rfl fun a _ => Finset.sum_congr rfl fun b _ => ?_
  congr 1
  ext
  simp only [finProdFinEquiv_apply_val]
  omega

theorem zeroF_eq : zeroF = 0 := Ideal.ofBits_zero_f32

theorem oneF_eq : oneF = 1 := by
  show Ideal.ofBits .f32 0x3F800000#32 = 1
  simp [Ideal.ofBits, Ideal.ieee, -EReal.coe_mul]; norm_num

/-- A sum over all samples, block by block. -/
theorem sum_blocks (f : Fin 131072 → EReal) : ∑ n : Fin 131072, f n = ∑ t : Fin 64, ∑ k : Fin 2048, f (rowOf t k) := by
  rw [sum_fin_mul 64 2048 131072 (by norm_num) f]
  rfl

/-- A sum over the 64 grid points, half by half. -/
theorem sum_halves (f : Fin 64 → EReal) :
    ∑ t : Fin 64, f t = ∑ o : Fin 2, ∑ i : Fin 32, f ⟨32 * o.val + i.val, by have := o.isLt; have := i.isLt; omega⟩ := by
  rw [sum_fin_mul 2 32 64 (by norm_num) f]

theorem counts_blocks (T : (⟨1, ![131072]⟩ : Shape).Idx → BitVec 32) (q : Fin 1000) :
    counts T q = ∑ t : Fin 64, pcount (blkT T t) q := by
  unfold counts pcount
  rw [sum_blocks]
  refine Finset.sum_congr rfl fun t _ => Finset.sum_congr rfl fun n _ => ?_
  have hiff : Hit T (rowOf t n) q ↔ blkT T t (ix2 n (0 : Fin 1)) = BitVec.ofNat 32 q.val := Iff.rfl
  by_cases h : Hit T (rowOf t n) q
  · rw [if_pos h, if_pos (hiff.mp h)]
  · rw [if_neg h, if_neg (fun h' => h (hiff.mpr h'))]

theorem sums_blocks (x : Mat 131072 512) (cl : Mat 1000 512) (T : (⟨1, ![131072]⟩ : Shape).Idx → BitVec 32) (q : Fin 1000) :
    sums x cl T q = ∑ t : Fin 64, psum (blkX x t) (unitMat cl) (blkT T t) q := by
  unfold sums psum
  rw [sum_blocks]
  refine Finset.sum_congr rfl fun t _ => Finset.sum_congr rfl fun n _ => ?_
  have hiff : Hit T (rowOf t n) q ↔ blkT T t (ix2 n (0 : Fin 1)) = BitVec.ofNat 32 q.val := Iff.rfl
  have hd : dist x cl (rowOf t n) q = bdist (blkX x t) (unitMat cl) n q := rfl
  by_cases h : Hit T (rowOf t n) q
  · rw [if_pos h, if_pos (hiff.mp h), hd]
  · rw [if_neg h, if_neg (fun h' => h (hiff.mpr h'))]

/-- The number of counted pairs, as a sum of ones, is the natural number of them. -/
theorem wwDen_eq_cast (cl : Mat 1000 512) : wwDen cl = ((wwCnt cl : ℝ) : EReal) := by
  unfold wwDen wwCnt
  rw [Nat.cast_sum, coe_sum_real]
  refine Finset.sum_congr rfl fun i _ => ?_
  rw [Nat.cast_sum, coe_sum_real]
  refine Finset.sum_congr rfl fun j _ => ?_
  by_cases h : Far cl i j
  · rw [if_pos h, if_pos h, Nat.cast_one, EReal.coe_one]
  · rw [if_neg h, if_neg h, Nat.cast_zero, EReal.coe_zero]

theorem wwCnt_le (cl : Mat 1000 512) : wwCnt cl ≤ 1000000 := by
  unfold wwCnt
  calc _ ≤ ∑ _i : Fin 1000, ∑ _j : Fin 1000, 1 :=
        Finset.sum_le_sum fun i _ => Finset.sum_le_sum fun j _ => by split_ifs <;> omega
    _ = 1000000 := by
        simp only [Finset.sum_const, Finset.card_univ, Fintype.card_fin, smul_eq_mul]

end Hug

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.RefWW.lean ====
/-
  The reference's weight term read at the exact instance: the same mean reciprocal squared distance over the counted
  pairs, summed over all pairs at once and counted with integer words.
-/
import proofs.«416468_j35811437314877_2_alg».proof.Proof.RefRead
import proofs.«416468_j35811437314877_2_alg».proof.Proof.Spec
import proofs.«416468_j35811437314877_2_alg».proof.Proof.SpecAlg
import proofs.«416468_j35811437314877_2_alg».proof.Proof.LibRowLayers
import Idealize.ShloMosaic.Lib.StableHlo.Predicate

set_option maxRecDepth 16384

noncomputable section

open scoped BigOperators

namespace Cert.ReferenceIdeal.RefWW

open Cert.ReferenceIdeal Cert.ReferenceIdeal.Gen Cert.ReferenceIdeal.Read
open Idealize.ShloMosaic Idealize.ShloMosaic.TcCoe Idealize.ShloMosaic.ValueIdx Idealize.SL.Sem

/-- The normalised weight at (r, c). -/
theorem w_eq (cl : (⟨S1000x512, .f32⟩ : BufTy).Contents (Elt Ideal)) (r : Fin 1000) (c : Fin 512) :
    val_main_v2 (F := Ideal) cl (ix2 r c) = Hug.unit cl r c := by
  have e : ∀ k : Fin 512, idx_main_call0_v1 (idx_main_call0_v2 (idx_main_v1 (ix2 r c))) k = ix2 r k := fun k =>
    funext fun a => Fin.ext (by match a with | ⟨0, _⟩ => rfl | ⟨1, _⟩ => rfl)
  rw [val_main_v2_apply, val_main_v1_apply, val_main_v0_apply, val_main_call0_v2_apply, val_main_call0_v1_apply]
  simp only [val_main_call0_v0_apply, val_main_call0_cst_apply, e, Ideal.hostDivf_def, Ideal.hostUnary_sqrt_def,
    Ideal.mulf_def, Ideal.ofBits_def, Ideal.ofBits_zero_f32, zero_add]
  rfl

/-- The squared length of normalised row r. -/
theorem sq_eq (cl : (⟨S1000x512, .f32⟩ : BufTy).Contents (Elt Ideal)) (r : Fin 1000) :
    val_main_v4 (F := Ideal) cl (ix1 r) = Hug.sqN cl r := by
  have e : ∀ k : Fin 512, idx_main_v4 (ix1 r) k = ix2 r k := fun k =>
    funext fun a => Fin.ext (by match a with | ⟨0, _⟩ => rfl | ⟨1, _⟩ => rfl)
  rw [val_main_v4_apply]
  simp only [val_main_v3_apply, val_main_cst_apply, e, w_eq, Ideal.mulf_def, Ideal.ofBits_def, Ideal.ofBits_zero_f32, zero_add]
  rfl

/-- The inner product of normalised rows i and j. -/
theorem gram_eq (cl : (⟨S1000x512, .f32⟩ : BufTy).Contents (Elt Ideal)) (i j : Fin 1000) :
    val_main_v11 (F := Ideal) cl (ix2 i j) = Hug.gram cl i j := by
  have el : ∀ k : Fin 512, lidx_main_v11 (ix2 i j) k = ix2 i k := fun k =>
    funext fun a => Fin.ext (by match a with | ⟨0, _⟩ => rfl | ⟨1, _⟩ => rfl)
  have er : ∀ k : Fin 512, idx_main_v10 (ridx_main_v11 (ix2 i j) k) = ix2 j k := fun k =>
    funext fun a => Fin.ext (by match a with | ⟨0, _⟩ => rfl | ⟨1, _⟩ => rfl)
  rw [val_main_v11_apply]
  simp only [val_main_v10_apply, el, er, w_eq]
  rfl

/-- The clamped squared distance of rows i and j. -/
theorem d2_eq (cl : (⟨S1000x512, .f32⟩ : BufTy).Contents (Elt Ideal)) (i j : Fin 1000) :
    val_main_v16 (F := Ideal) cl (ix2 i j) = Hug.d2 cl i j := by
  have e7 : idx_main_v5 (idx_main_v7 (ix2 i j)) = ix1 i := funext fun a => Fin.ext (by match a with | ⟨0, _⟩ => rfl)
  have e8 : idx_main_v6 (idx_main_v8 (ix2 i j)) = ix1 j := funext fun a => Fin.ext (by match a with | ⟨0, _⟩ => rfl)
  rw [val_main_v16_apply, val_main_v14_apply, val_main_v9_apply, val_main_v7_apply, val_main_v5_apply, val_main_v8_apply,
    val_main_v6_apply, val_main_v13_apply, val_main_v12_apply, val_main_v15_apply, e7, e8, sq_eq, sq_eq, gram_eq]
  rfl

/-- A conjunction of two bits is set exactly when both are. -/
theorem andi_one_iff (c d : BitVec 1) : IntOp.andi c d = 1#1 ↔ c = 1#1 ∧ d = 1#1 := by revert c d; decide

/-- A small natural number's 32-bit word has that value. -/
theorem toNat_ofNat_small (a : ℕ) (ha : a < 1000) : (BitVec.ofNat 32 a).toNat = a := by
  rw [BitVec.toNat_ofNat]; exact Nat.mod_eq_of_lt (by omega)

/-- The strict upper triangle: the bit at (i, j) is set exactly when i < j. -/
theorem triu_eq (i j : Fin 1000) : val_main_v18 (F := Ideal) (ix2 i j) = 1#1 ↔ i.val < j.val := by
  have ti := toNat_ofNat_small i.val i.isLt
  have tj := toNat_ofNat_small j.val j.isLt
  rw [val_main_v18_apply, val_main_call1_v4_apply, val_main_call1_v2_apply, val_main_call1_v0_apply, val_main_call1_v1_apply,
    val_main_call1_c_apply, val_main_call1_v3_apply, val_main_call1_v5_apply, val_main_call1_c_0_apply, val_main_v17_apply,
    val_main_c_apply]
  show Scalar.select (IntOp.cmpi .sge (IntOp.addi (BitVec.ofNat 32 i.val) 0#32) (BitVec.ofNat 32 j.val)) 0#1 1#1 = 1#1 ↔ _
  rw [show IntOp.addi (BitVec.ofNat 32 i.val) 0#32 = BitVec.ofNat 32 i.val from BitVec.add_zero _]
  have hge := StableHlo.Predicate.sge_iff_toNat (a := BitVec.ofNat 32 i.val) (b := BitVec.ofNat 32 j.val)
    (by rw [ti]; have := i.isLt; omega) (by rw [tj]; have := j.isLt; omega)
  rw [ti, tj] at hge
  by_cases h : i.val < j.val
  · have h0 : IntOp.cmpi .sge (BitVec.ofNat 32 i.val) (BitVec.ofNat 32 j.val) = 0#1 :=
      eq_zero_of_ne_one fun h1 => by have := hge.1 h1; omega
    rw [h0, select_zero]
    exact ⟨fun _ => h, fun _ => rfl⟩
  · have h1 : IntOp.cmpi .sge (BitVec.ofNat 32 i.val) (BitVec.ofNat 32 j.val) = 1#1 := hge.2 (by omega)
    rw [h1, select_one]
    exact ⟨fun e => absurd e (by decide), fun e => absurd e h⟩

/-- The mask: the bit at (i, j) is set exactly at the pairs that count. -/
theorem mask_eq (cl : (⟨S1000x512, .f32⟩ : BufTy).Contents (Elt Ideal)) (i j : Fin 1000) :
    val_main_v21 (F := Ideal) cl (ix2 i j) = 1#1 ↔ Hug.Far cl i j := by
  rw [val_main_v21_apply, val_main_v20_apply, val_main_v19_apply, d2_eq, andi_one_iff, triu_eq]
  exact Iff.rfl

/-- The masked reciprocal squared distance. -/
theorem inv_eq (cl : (⟨S1000x512, .f32⟩ : BufTy).Contents (Elt Ideal)) (i j : Fin 1000) :
    val_main_v25 (F := Ideal) cl (ix2 i j) = Hug.inv cl i j := by
  rw [val_main_v25_apply, val_main_v24_apply, val_main_v22_apply, val_main_v23_apply, val_main_call3_v1_apply, d2_eq]
  unfold Hug.inv
  by_cases h : Hug.Far cl i j
  · rw [(mask_eq cl i j).2 h, select_one, select_one, if_pos h]
    rfl
  · rw [eq_zero_of_ne_one fun h1 => h ((mask_eq cl i j).1 h1), select_zero, if_neg h]
    rfl

/-- The sum over all pairs at once is the sum row by row. -/
theorem num_eq (cl : (⟨S1000x512, .f32⟩ : BufTy).Contents (Elt Ideal)) (i : S_.Idx) :
    val_main_v26 (F := Ideal) cl i = Hug.wwNum cl := by
  rw [val_main_v26_apply, val_main_cst_6_apply, sum_idx2]
  simp only [inv_eq, Ideal.ofBits_def, Ideal.ofBits_zero_f32, zero_add]
  rfl

/-- The integer sum of the widened mask bits is the number of pairs that count (it is far below 2³²). -/
theorem cnt_toNat (cl : (⟨S1000x512, .f32⟩ : BufTy).Contents (Elt Ideal)) (i : S_.Idx) :
    (val_main_v28 (F := Ideal) cl i).toNat = Hug.wwCnt cl := by
  classical
  unfold val_main_v28
  rw [Host.reduce_eq_fold]
  have hall : (Finset.univ.filter fun j : S1000x1000.Idx => reducesTo_S1000x1000_S_d0_1.drop j = i) = Finset.univ :=
    Finset.filter_true_of_mem fun j _ => funext fun a => a.elim0
  rw [hall]
  have hsum : ∑ j : S1000x1000.Idx, (val_main_v27 (F := Ideal) cl j).toNat = Hug.wwCnt cl := by
    rw [sum_idx2]
    unfold Hug.wwCnt
    refine Finset.sum_congr rfl fun a _ => Finset.sum_congr rfl fun b _ => ?_
    rw [val_main_v27_apply, StableHlo.Predicate.toNat_setWidth_bit]
    by_cases h : Hug.Far cl a b
    · rw [if_pos ((mask_eq cl a b).2 h), if_pos h]
    · rw [if_neg (fun h1 => h ((mask_eq cl a b).1 h1)), if_neg h]
  show (Finset.univ.fold IntOp.addi 0#32 (val_main_v27 (F := Ideal) cl)).toNat = _
  rw [StableHlo.Predicate.toNat_fold_addi _ _ (by rw [hsum]; have := Hug.wwCnt_le cl; omega), hsum]

/-- The count converted to a float is the number of pairs that count. -/
theorem den_eq (cl : (⟨S1000x512, .f32⟩ : BufTy).Contents (Elt Ideal)) (i : S_.Idx) :
    val_main_v29 (F := Ideal) cl i = Hug.wwDen cl := by
  have hc := cnt_toNat cl i
  have hle := Hug.wwCnt_le cl
  rw [val_main_v29_apply, Hug.wwDen_eq_cast]
  show (((val_main_v28 (F := Ideal) cl i).toInt : ℝ) : EReal) = _
  rw [StableHlo.Predicate.toInt_eq_toNat_of_lt (by rw [hc]; omega), hc, Int.cast_natCast]

theorem ref_ww (cl : (⟨S1000x512, .f32⟩ : BufTy).Contents (Elt Ideal)) :
    val_main_v62 (F := Ideal) cl = fun _ => Hug.weightWise cl := by
  funext i
  rw [val_main_v62_apply, val_main_v30_apply, num_eq, den_eq]
  rfl

end Cert.ReferenceIdeal.RefWW

end
-- ==== Proof.Tail.lean ====
/-
  The last stretch of host arithmetic, which both programs share word for word: from the per-class counts and summed
  distances, the classes that occur, each occurring class's mean distance, and the mean of those means, times the unit weight.
-/
import Idealize.ShloMosaic.PureOps
import Idealize.ShloMosaic.PureOps.Ideal

noncomputable section

namespace Hug

open Idealize.ShloMosaic

/-- The mean over the occurring classes of each class's mean distance, as the host operations spell it. -/
def tail (cnt sm : FVec Ideal ⟨1, ![1000]⟩ .f32) : FVec Ideal ⟨0, ![]⟩ .f32 :=
  mulf
    (Host.divf
      (Host.reduceAdd
        (select
          (cmpf (F := Ideal) .ogt cnt (broadcastInDim ⟨1, ![1000]⟩ ![] (by decide) (constant (F := Ideal) ⟨0, ![]⟩ .f32 0x00000000#32)))
          (Host.divf sm (maximumf cnt (broadcastInDim ⟨1, ![1000]⟩ ![] (by decide) (constant (F := Ideal) ⟨0, ![]⟩ .f32 0x3F800000#32))))
          (broadcastInDim ⟨1, ![1000]⟩ ![] (by decide) (id (constant (F := Ideal) ⟨0, ![]⟩ .f32 0x00000000#32))))
        (constant (F := Ideal) ⟨0, ![]⟩ .f32 0x00000000#32)
        (show (⟨1, ![1000]⟩ : Shape).ReducesTo [0] ⟨0, ![]⟩ from by decide) (by decide))
      (sitofp (F := Ideal) .f32
        (Host.reduce IntOp.addi
          (extui 32
            (cmpf (F := Ideal) .ogt cnt (broadcastInDim ⟨1, ![1000]⟩ ![] (by decide) (constant (F := Ideal) ⟨0, ![]⟩ .f32 0x00000000#32)))
            (by decide))
          (constantI ⟨0, ![]⟩ 32 0#32) (show (⟨1, ![1000]⟩ : Shape).ReducesTo [0] ⟨0, ![]⟩ from by decide) (by decide))))
    (constant (F := Ideal) ⟨0, ![]⟩ .f32 0x3F800000#32)

end Hug

end
-- ==== Proof.RefSW.lean ====
/-
  The reference's sample term read at the exact instance: the two accumulating scatters are the per-class counts and
  summed distances (a label outside 0..999 lands nowhere), the gathered weight row of a sample labelled q is row q, and
  the closing arithmetic is the shared one.
-/
import proofs.«416468_j35811437314877_2_alg».proof.Proof.RefRead
import proofs.«416468_j35811437314877_2_alg».proof.Proof.Spec
import proofs.«416468_j35811437314877_2_alg».proof.Proof.SpecAlg
import proofs.«416468_j35811437314877_2_alg».proof.Proof.Tail
import proofs.«416468_j35811437314877_2_alg».proof.Proof.LibRowLayers
import Idealize.ShloMosaic.Lib.StableHlo.Predicate

set_option maxRecDepth 16384

noncomputable section

open scoped BigOperators

namespace Cert.ReferenceIdeal.RefSW

open Cert.ReferenceIdeal Cert.ReferenceIdeal.Gen Cert.ReferenceIdeal.Read
open Idealize.ShloMosaic Idealize.ShloMosaic.TcCoe Idealize.ShloMosaic.ValueIdx Idealize.SL.Sem

/-! ## Words and index sets -/

/-- A 32-bit word is the label q below 1000 exactly when, read signed, it lies in 0..999 and is q. -/
theorem word_label (w : BitVec 32) (q : ℕ) (hq : q < 1000) :
    w = BitVec.ofNat 32 q ↔ (0 ≤ w.toInt ∧ w.toInt < 1000 ∧ w.toInt.toNat = q) := by
  constructor
  · rintro rfl
    rw [StableHlo.Predicate.toInt_ofNat_small q (by omega)]
    refine ⟨by omega, by omega, by simp⟩
  · rintro ⟨h0, h1, h2⟩
    apply BitVec.eq_of_toNat_eq
    rw [BitVec.toNat_ofNat]
    have hc := BitVec.toInt_eq_toNat_cond w
    have hl := w.isLt
    rw [Nat.mod_eq_of_lt (by omega)]
    split at hc <;> omega

/-- A rank-1 index set is its coordinate's range … -/
def idxEquiv1 {n : ℕ} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]; rfl

/-! ## The scatter into the 1000 classes: where an update lands -/

/-- The scatter's dimension numbers. -/
abbrev sd := scatter_S1000_S131072x1_S131072_n_0_0_1

/-- Update n starts at its label read signed. -/
theorem sd_start (idx : IVec S131072x1 32) (n : Fin 131072) (a : Fin 1) :
    sd.start (ix1 n) idx a = (idx (ix2 n (0 : Fin 1))).toInt := by
  obtain rfl : a = 0 := Subsingleton.elim _ _
  unfold ScatterDims.start
  rw [dif_pos (show (0 : Fin 1) ∈ sd.scatterDimsToOperandDims from List.mem_singleton.mpr rfl)]
  have hsi : sd.siIdx (ix1 n) ⟨List.idxOf (0 : Fin 1) sd.scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

/-- The class axis is inserted: no window coordinate. -/
theorem sd_window (n : Fin 131072) (a : Fin 1) : sd.window (ix1 n) a = 0 := by
  obtain rfl : a = 0 := Subsingleton.elim _ _
  unfold ScatterDims.window
  rw [dif_neg (by decide)]

/-- Update n lands on class q exactly when its label is the word q; a label outside 0..999 lands nowhere. -/
theorem sd_resultIdx (idx : IVec S131072x1 32) (n : Fin 131072) (q : Fin 1000) :
    sd.resultIdx? (ix1 n) idx = some (ix1 q) ↔ idx (ix2 n (0 : Fin 1)) = BitVec.ofNat 32 q.val := by
  rw [word_label _ _ q.isLt]
  have hs : (S1000.size 0 : ℕ) = 1000 := rfl
  have hin : (∀ a, 0 ≤ sd.start (ix1 n) idx a + sd.window (ix1 n) a ∧ sd.start (ix1 n) idx a + sd.window (ix1 n) a < S1000.size a)
      ↔ (0 ≤ (idx (ix2 n (0 : Fin 1))).toInt ∧ (idx (ix2 n (0 : Fin 1))).toInt < 1000) := by
    constructor
    · intro h
      have h0 := h 0
      rw [sd_start, sd_window, hs] at h0
      simp only [Nat.cast_zero, add_zero, Nat.cast_ofNat] at h0
      exact h0
    · intro h a
      obtain rfl : a = 0 := Subsingleton.elim _ _
      rw [sd_start, sd_window, hs]
      simp only [Nat.cast_zero, add_zero, Nat.cast_ofNat]
      exact h
  unfold ScatterDims.resultIdx?
  by_cases h : ∀ a, 0 ≤ sd.start (ix1 n) idx a + sd.window (ix1 n) a ∧ sd.start (ix1 n) idx a + sd.window (ix1 n) a < S1000.size a
  · rw [dif_pos h]
    have h0 := hin.1 h
    constructor
    · intro he
      have h1 := congrArg Fin.val (congrFun (Option.some.inj he) 0)
      simp only [sd_start, sd_window, Nat.cast_zero, add_zero] at h1
      exact ⟨h0.1, h0.2, h1⟩
    · rintro ⟨_, _, g2⟩
      refine congrArg some (funext fun a => Fin.ext ?_)
      obtain rfl : a = 0 := Subsingleton.elim _ _
      show (sd.start (ix1 n) idx 0 + sd.window (ix1 n) 0).toNat = q.val
      rw [sd_start, sd_window]
      simp only [Nat.cast_zero, add_zero]
      exact g2
  · rw [dif_neg h]
    constructor
    · intro he; cases he
    · rintro ⟨g0, g1, _⟩
      exact absurd (hin.2 ⟨g0, g1⟩) h

/-- The label column reads the labels. -/
theorem idx45 (n : Fin 131072) : idx_main_v45 (ix2 n (0 : Fin 1)) = ix1 n :=
  funext fun a => by match a with | ⟨0, _⟩ => rfl

theorem ref_cnt (T : (⟨S131072, .i32⟩ : BufTy).Contents (Elt Ideal)) :
    val_main_v46 (F := Ideal) T = fun j => Hug.counts T (j 0) := by
  funext i
  obtain ⟨q, rfl⟩ : ∃ q : Fin 1000, i = ix1 q := ⟨i 0, eq_ix1 i⟩
  show _ = Hug.counts T q
  unfold val_main_v46
  simp only [Host.scatterAdd, Ideal.hostScatterAdd_def]
  unfold Ideal.hostScatterAdd
  rw [Finset.sum_filter, sum_idx1, val_main_v44_apply, val_main_cst_11_apply]
  show Ideal.ofBits .f32 0x00000000#32 + _ = _
  rw [Ideal.ofBits_zero_f32, zero_add]
  unfold Hug.counts
  refine Finset.sum_congr rfl fun n _ => ?_
  have hc : sd.resultIdx? (ix1 n) (val_main_v45 (F := Ideal) T) = some (ix1 q) ↔ Hug.Hit T n q := by
    rw [sd_resultIdx, val_main_v45_apply, idx45]
    exact Iff.rfl
  have hv : val_main_v43 (F := Ideal) (ix1 n) = 1 := by
    rw [val_main_v43_apply, val_main_cst_10_apply]
    exact Hug.oneF_eq
  by_cases hh : Hug.Hit T n q
  · rw [if_pos (hc.2 hh), if_pos hh, hv]
  · rw [if_neg (fun h => hh (hc.1 h)), if_neg hh]

/-! ## The gather of the weight rows: which row a sample reads -/

/-- The gather's dimension numbers. -/
abbrev gd := gather_S1000x512_S131072x1_S131072x512_1_0_n_n_0_1_1512

/-- Entry (n, d) of the gathered rows is entry (r, d) of the operand, r sample n's start index read signed and clamped to 0..999. -/
theorem gd_operandIdx (idx : IVec S131072x1 32) (n : Fin 131072) (d : Fin 512) :
    gd.operandIdx (ix2 n d) idx = ix2 (⟨min (idx (ix2 n (0 : Fin 1))).toInt.toNat 999, by omega⟩ : Fin 1000) d := by
  have h0 : (gd.operandIdx (ix2 n d) idx 0).val = min (idx (ix2 n (0 : Fin 1))).toInt.toNat 999 := by
    show gd.start (ix2 n d) idx 0 + gd.batchCoord (ix2 n d) 0 + gd.offCoord (ix2 n d) 0 = _
    rw [GatherDims.batchCoord_eq_zero _ _ _ List.not_mem_nil, Nat.add_zero,
      GatherDims.offCoord_eq_zero _ _ _ (by decide), Nat.add_zero]
    unfold GatherDims.start
    rw [dif_pos (show (0 : Fin 2) ∈ gd.startIndexMap from List.mem_singleton.mpr rfl)]
    have hsi : gd.siIdx (ix2 n d) ⟨List.idxOf (0 : Fin 2) gd.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  have h1 : (gd.operandIdx (ix2 n d) idx 1).val = d.val := by
    show gd.start (ix2 n d) idx 1 + gd.batchCoord (ix2 n d) 1 + gd.offCoord (ix2 n d) 1 = _
    rw [GatherDims.batchCoord_eq_zero _ _ _ List.not_mem_nil, Nat.add_zero]
    have hst : gd.start (ix2 n d) idx 1 = 0 := by
      unfold GatherDims.start
      rw [dif_neg (by decide)]
    have hoff : gd.offCoord (ix2 n d) 1 = d.val := by
      unfold GatherDims.offCoord
      rw [dif_pos (by decide)]
      rfl
    rw [hst, hoff, Nat.zero_add]
  funext a
  refine Fin.ext ?_
  match a with
  | ⟨0, _⟩ => exact h0
  | ⟨1, _⟩ => exact h1

/-! ## The reference's stages at an index -/

/-- The normalised features: entry (n, d). -/
theorem v33_at (x : (⟨S131072x512, .f32⟩ : BufTy).Contents (Elt Ideal)) (n : Fin 131072) (d : Fin 512) :
    val_main_v33 (F := Ideal) x (ix2 n d) = Hug.unit x n d := by
  unfold Hug.unit
  rw [val_main_v33_apply, val_main_v32_apply, val_main_v31_apply, val_main_call4_v2_apply, val_main_call4_v1_apply,
    val_main_call4_cst_apply]
  refine congrArg (Ideal.div (x (ix2 n d))) (congrArg Ideal.sqrt ?_)
  refine (congrArg (· + _) Ideal.ofBits_zero_f32).trans ((zero_add _).trans ?_)
  refine Finset.sum_congr rfl fun k _ => ?_
  rw [val_main_call4_v0_apply]
  exact congrArg (fun j => x j * x j) (funext fun a => by match a with | ⟨0, _⟩ => rfl | ⟨1, _⟩ => rfl)

/-- The normalised weights: entry (q, d). -/
theorem v2_at (cl : (⟨S1000x512, .f32⟩ : BufTy).Contents (Elt Ideal)) (q : Fin 1000) (d : Fin 512) :
    val_main_v2 (F := Ideal) cl (ix2 q d) = Hug.unit cl q d := by
  unfold Hug.unit
  rw [val_main_v2_apply, val_main_v1_apply, val_main_v0_apply, val_main_call0_v2_apply, val_main_call0_v1_apply,
    val_main_call0_cst_apply]
  refine congrArg (Ideal.div (cl (ix2 q d))) (congrArg Ideal.sqrt ?_)
  refine (congrArg (· + _) Ideal.ofBits_zero_f32).trans ((zero_add _).trans ?_)
  refine Finset.sum_congr rfl fun k _ => ?_
  rw [val_main_call0_v0_apply]
  exact congrArg (fun j => cl j * cl j) (funext fun a => by match a with | ⟨0, _⟩ => rfl | ⟨1, _⟩ => rfl)

/-- The wrapped label column reads the wrapped labels. -/
theorem idx39 (n : Fin 131072) : idx_main_v39 (ix2 n (0 : Fin 1)) = ix1 n :=
  funext fun a => by match a with | ⟨0, _⟩ => rfl

/-- A sample labelled q < 1000 keeps its label under the wrap of negative labels. -/
theorem v39_at (T : (⟨S131072, .i32⟩ : BufTy).Contents (Elt Ideal)) (n : Fin 131072) (q : Fin 1000) (h : Hug.Hit T n q) :
    val_main_v39 (F := Ideal) T (ix2 n (0 : Fin 1)) = BitVec.ofNat 32 q.val := by
  have hT : T (ix1 n) = BitVec.ofNat 32 q.val := h
  have hq := q.isLt
  have hlt : IntOp.cmpi .slt (BitVec.ofNat 32 q.val) 0#32 = 0#1 := by
    apply eq_zero_of_ne_one
    intro hc
    have h2 := (StableHlo.Predicate.slt_iff_toNat (a := BitVec.ofNat 32 q.val) (b := 0#32)
      (by rw [BitVec.toNat_ofNat]; omega) (by decide)).1 hc
    simp at h2
  rw [val_main_v39_apply, idx39, val_main_v38_apply, val_main_v35_apply, val_main_v34_apply, val_main_c_8_apply, hT, hlt,
    select_zero]

/-- The gathered weight row of a sample labelled q is row q of the normalised weights. -/
theorem v40_at (cl : (⟨S1000x512, .f32⟩ : BufTy).Contents (Elt Ideal)) (T : (⟨S131072, .i32⟩ : BufTy).Contents (Elt Ideal))
    (n : Fin 131072) (q : Fin 1000) (d : Fin 512) (h : Hug.Hit T n q) :
    val_main_v40 (F := Ideal) cl T (ix2 n d) = Hug.unit cl q d := by
  unfold val_main_v40 Host.gather
  rw [gd_operandIdx, ← v2_at]
  refine congrArg (fun r => val_main_v2 (F := Ideal) cl (ix2 r d)) (Fin.ext ?_)
  show min (val_main_v39 (F := Ideal) T (ix2 n (0 : Fin 1))).toInt.toNat 999 = q.val
  have hq := q.isLt
  rw [v39_at T n q h, StableHlo.Predicate.toInt_ofNat_small q.val (by omega), Int.toNat_natCast]
  omega

/-- The distance of a sample labelled q to its gathered row is its distance to class q. -/
theorem v42_at (x : (⟨S131072x512, .f32⟩ : BufTy).Contents (Elt Ideal)) (cl : (⟨S1000x512, .f32⟩ : BufTy).Contents (Elt Ideal))
    (T : (⟨S131072, .i32⟩ : BufTy).Contents (Elt Ideal)) (n : Fin 131072) (q : Fin 1000) (h : Hug.Hit T n q) :
    val_main_v42 (F := Ideal) x cl T (ix1 n) = Hug.dist x cl n q := by
  unfold Hug.dist val_main_v42
  rw [RowLayers.hostSqrt_apply, val_main_call5_v1_apply, val_main_call5_cst_apply]
  refine congrArg Ideal.sqrt ?_
  refine (congrArg (· + _) Ideal.ofBits_zero_f32).trans ((zero_add _).trans ?_)
  refine Finset.sum_congr rfl fun k _ => ?_
  have hi : idx_main_call5_v1 (ix1 n) k = ix2 n k := funext fun a => by match a with | ⟨0, _⟩ => rfl | ⟨1, _⟩ => rfl
  rw [hi, val_main_call5_v0_apply, val_main_v41_apply, v33_at, v40_at cl T n q k h]
  rfl

/-- The second label column reads the labels too. -/
theorem idx48 (n : Fin 131072) : idx_main_v48 (ix2 n (0 : Fin 1)) = ix1 n :=
  funext fun a => by match a with | ⟨0, _⟩ => rfl

theorem ref_sum (x : (⟨S131072x512, .f32⟩ : BufTy).Contents (Elt Ideal)) (cl : (⟨S1000x512, .f32⟩ : BufTy).Contents (Elt Ideal))
    (T : (⟨S131072, .i32⟩ : BufTy).Contents (Elt Ideal)) :
    val_main_v49 (F := Ideal) x cl T = fun j => Hug.sums x cl T (j 0) := by
  funext i
  obtain ⟨q, rfl⟩ : ∃ q : Fin 1000, i = ix1 q := ⟨i 0, eq_ix1 i⟩
  show _ = Hug.sums x cl T q
  unfold val_main_v49
  simp only [Host.scatterAdd, Ideal.hostScatterAdd_def]
  unfold Ideal.hostScatterAdd
  rw [Finset.sum_filter, sum_idx1, val_main_v47_apply, val_main_cst_12_apply]
  show Ideal.ofBits .f32 0x00000000#32 + _ = _
  rw [Ideal.ofBits_zero_f32, zero_add]
  unfold Hug.sums
  refine Finset.sum_congr rfl fun n _ => ?_
  have hc : sd.resultIdx? (ix1 n) (val_main_v48 (F := Ideal) T) = some (ix1 q) ↔ Hug.Hit T n q := by
    rw [sd_resultIdx, val_main_v48_apply, idx48]
    exact Iff.rfl
  by_cases hh : Hug.Hit T n q
  · rw [if_pos (hc.2 hh), if_pos hh, v42_at x cl T n q hh]
  · rw [if_neg (fun h => hh (hc.1 h)), if_neg hh]

theorem ref_tail (x : (⟨S131072x512, .f32⟩ : BufTy).Contents (Elt Ideal)) (cl : (⟨S1000x512, .f32⟩ : BufTy).Contents (Elt Ideal))
    (T : (⟨S131072, .i32⟩ : BufTy).Contents (Elt Ideal)) :
    val_main_v61 (F := Ideal) x cl T = Hug.tail (val_main_v46 (F := Ideal) T) (val_main_v49 (F := Ideal) x cl T) := by
  unfold val_main_v61 val_main_v60 val_main_v59 val_main_v58 val_main_v57 val_main_v56 val_main_v55 val_main_v54 val_main_v53 val_main_v51
  generalize val_main_v46 (F := Ideal) T = cnt
  generalize val_main_v49 (F := Ideal) x cl T = sm
  rfl

end Cert.ReferenceIdeal.RefSW

end
-- ==== Proof.KNames.lean ====
/-
  Names, with their literal types, for the arrays the two kernels read and write and for the blocks the second kernel's
  windows hold at a grid point. Nothing is proved here.
-/
import proofs.«416468_j35811437314877_2_alg».proof.Proof.Gen.KernelIdeal.Frame
import Idealize.ShloMosaic.Lib.ValueIdx

set_option maxRecDepth 16384

noncomputable section

open scoped BigOperators

namespace Cert.KernelIdeal.KNames

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The class-weight matrix, the feature matrix and the labels, as launched. -/
abbrev clsArr (c : Dev nD) : Vec F S1000x512 .f32 := m ((c.tc : Thread nD τ).loc main_arg1)
abbrev featArr (c : Dev nD) : Vec F S131072x512 .f32 := m ((c.tc : Thread nD τ).loc main_arg0)
abbrev tgtArr (c : Dev nD) : Vec F S131072 .i32 := m ((c.tc : Thread nD τ).loc main_arg2)

/-- What the first kernel leaves: the normalised weight table and the one-entry weight term. -/
abbrev wbfArr (c : Dev nD) : Vec F S1000x512 .bf16 := (dat0 (V0 m ρ) c).arrAt 1 cfg0.N
abbrev wwArr (c : Dev nD) : Vec F S1x1 .f32 := (dat0 (V0 m ρ) c).arrAt 2 cfg0.N

/-- What the second kernel leaves: sixteen rows of per-class counts and of per-class summed distances. -/
abbrev cntArr (c : Dev nD) : Vec F S16x1000 .f32 := (dat1 (V2 m ρ) c).arrAt 3 cfg1.N
abbrev sumArr (c : Dev nD) : Vec F S16x1000 .f32 := (dat1 (V2 m ρ) c).arrAt 4 cfg1.N

variable (V : (c : Dev nD) → (b : Ref sig .tc) → Buf (Elt F) ((c : Thread nD τ).loc b))

/-- The second kernel's three input blocks at grid point t: 2048 feature rows, the whole weight table, 2048 labels. -/
abbrev featBlk (c : Dev nD) (t : Fin cfg1.N) : Vec F S2048x512 .f32 := iblk1 V c 0 t
abbrev wBlk (c : Dev nD) (t : Fin cfg1.N) : Vec F S1000x512 .bf16 := iblk1 V c 1 t
abbrev tgtBlk (c : Dev nD) (t : Fin cfg1.N) : Vec F S2048x1 .i32 := iblk1 V c 2 t

/-- The first kernel's one input block: the whole class-weight matrix. -/
abbrev clsBlk (c : Dev nD) (t : Fin cfg0.N) : Vec F S1000x512 .f32 := iblk0 V c 0 t

/-- Grid point 32 o + i of the second kernel: half o of the samples, step i within the half. -/
def pt (o : Fin 2) (i : Fin 32) : Fin cfg1.N := ⟨32 * o.val + i.val, by
  have h : cfg1.N = 64 := N_1
  have := o.isLt; have := i.isLt; omega⟩

/-- A grid point of the second kernel as a number below 64. -/
def t64 (t : Fin cfg1.N) : Fin 64 := ⟨t.val, lt_of_lt_of_eq t.isLt N_1⟩

/-- Row 8 o + s of the sixteen result rows. -/
def row16 (o : Fin 2) (s : Fin 8) : Fin 16 := ⟨8 * o.val + s.val, by have := o.isLt; have := s.isLt; omega⟩

end Cert.KernelIdeal.KNames

end
-- ==== Proof.KPay0.lean ====
/-
  The first kernel's arithmetic read at an index, at the exact instance: the table it stores is the class-weight matrix
  with every row divided by its Euclidean length, and its one-entry result is the sum of the reciprocal squared distances
  over the counted pairs divided by the number of those pairs.
-/
import proofs.«416468_j35811437314877_2_alg».proof.Proof.Gen.KernelIdeal.Skeleton
import proofs.«416468_j35811437314877_2_alg».proof.Proof.Spec
import proofs.«416468_j35811437314877_2_alg».proof.Proof.LibRowLayers
import Idealize.ShloMosaic.Lib.StableHlo.Predicate

set_option maxRecDepth 16384

noncomputable section

open scoped BigOperators

namespace Cert.KernelIdeal.KPay0

open Cert.KernelIdeal Cert.KernelIdeal.Gen
open Idealize.ShloMosaic Idealize.ShloMosaic.ValueIdx

/-! ## Sums along one axis of a matrix, and the layout steps around them, read at an index -/

/-- A lane reduction along the columns, read at row r: the sum of the row's entries. -/
theorem rowSum_apply {m n : ℕ} (hred : (⟨2, ![m, n]⟩ : Shape).Reduces [1] ⟨1, ![m]⟩) (hfmt : FKind.Formats FTy.f32)
    (hacc : (0x00000000#32 : BitVec 32) = 0x00000000#32)
    (v : FVec Ideal ⟨2, ![m, n]⟩ .f32) (r : Fin m) :
    multiReduction .add [1] ⟨1, ![m]⟩ v 0x00000000#32 hred hfmt hacc (ix1 r) = ∑ c : Fin n, v (ix2 r c) := by
  refine (Ideal.multiReduction_add_single v 0x00000000#32 hred hfmt hacc (ix1 r)).trans ?_
  refine Finset.sum_congr rfl fun c _ => ?_
  rw [RowLayers.lift_cols]; rfl

/-- Putting row c back into the reduced index of a reduction of a column along its rows gives (c, 0). -/
theorem lift_rows {m : ℕ} (hred : (⟨2, ![m, 1]⟩ : Shape).Reduces [0] ⟨1, ![1]⟩) (u : Fin 1)
    (c : Fin ((⟨2, ![m, 1]⟩ : Shape).size 0)) : hred.lift (ix1 u) c = ix2 (⟨c.val, c.isLt⟩ : Fin m) u := by
  funext a; apply Fin.ext
  fin_cases a <;> rfl

/-- A reduction of a column along its rows, read at its one entry: the sum of the column's entries. -/
theorem colSum_apply {m : ℕ} (hred : (⟨2, ![m, 1]⟩ : Shape).Reduces [0] ⟨1, ![1]⟩) (hfmt : FKind.Formats FTy.f32)
    (hacc : (0x00000000#32 : BitVec 32) = 0x00000000#32)
    (v : FVec Ideal ⟨2, ![m, 1]⟩ .f32) (u : Fin 1) :
    multiReduction .add [0] ⟨1, ![1]⟩ v 0x00000000#32 hred hfmt hacc (ix1 u) = ∑ c : Fin m, v (ix2 c u) := by
  refine (Ideal.multiReduction_add_single v 0x00000000#32 hred hfmt hacc (ix1 u)).trans ?_
  refine Finset.sum_congr rfl fun c _ => ?_
  rw [lift_rows]; rfl

/-! ## The normalised table -/

/-- Entry (i, d) of the normalised matrix: entry (i, d) of x over the length of row i. -/
theorem pay2_apply (x : Vec Ideal S1000x512 .f32) (i : Fin 1000) (d : Fin 512) :
    k0_pay2 (F := Ideal) x (ix2 i d) = Hug.unit x i d := by
  unfold k0_pay2
  rw [divf_apply, RowLayers.broadcastColumn_apply]
  show Ideal.div _ (Ideal.sqrt (shapeCast _ _ _ (ix2 i (0 : Fin 1)))) = _
  rw [RowLayers.column_apply, rowSum_apply]
  rfl

/-- Entry (i, d) of the stored table: entry (i, d) of x over the length of row i. -/
theorem wrow_apply (x : Vec Ideal S1000x512 .f32) (i : Fin 1000) (d : Fin 512) :
    k0_pay3 (F := Ideal) x (ix2 i d) = Hug.unit x i d := by
  unfold k0_pay3
  exact pay2_apply x i d

/-- The squared length of normalised row i, as the kernel adds it up. -/
theorem sq_apply (x : Vec Ideal S1000x512 .f32) (hfmt : FKind.Formats FTy.f32)
    (hacc : (0x00000000#32 : BitVec 32) = 0x00000000#32) (i : Fin 1000) :
    multiReduction .add [1] S1000 (mulf (k0_pay2 (F := Ideal) x) (k0_pay2 x)) 0x00000000#32 reduces_S1000x512_S1000 hfmt hacc (ix1 i)
      = Hug.sqN x i := by
  rw [rowSum_apply]
  refine Finset.sum_congr rfl fun c _ => ?_
  rw [mulf_apply, pay2_apply]

/-! ## The product of the table with its transpose on the matrix unit -/

theorem lhs_dot_0 (j : S1000x1000.Idx) (k : dot_S1000x512_S512x1000_S1000x1000_1_0_0_1_n_n.contr.Idx) :
    (dot_S1000x512_S512x1000_S1000x1000_1_0_0_1_n_n.lhsIdx j k 0).val = (j 0).val := by
  unfold DotDims.lhsIdx
  rw [dif_neg (show ¬ (0 : Fin S1000x512.rank) ∈ dot_S1000x512_S512x1000_S1000x1000_1_0_0_1_n_n.lhsBatch by decide),
    dif_pos (show (0 : Fin S1000x512.rank) ∈ dot_S1000x512_S512x1000_S1000x1000_1_0_0_1_n_n.lhsNonContracting by decide)]
  rfl

theorem lhs_dot_1 (j : S1000x1000.Idx) (k : dot_S1000x512_S512x1000_S1000x1000_1_0_0_1_n_n.contr.Idx) :
    (dot_S1000x512_S512x1000_S1000x1000_1_0_0_1_n_n.lhsIdx j k 1).val = (k ⟨0, by decide⟩).val :=
  dot_S1000x512_S512x1000_S1000x1000_1_0_0_1_n_n.lhsIdx_val_of_single rfl j k

theorem rhs_dot_0 (j : S1000x1000.Idx) (k : dot_S1000x512_S512x1000_S1000x1000_1_0_0_1_n_n.contr.Idx) :
    (dot_S1000x512_S512x1000_S1000x1000_1_0_0_1_n_n.rhsIdx j k 0).val = (k ⟨0, by decide⟩).val :=
  dot_S1000x512_S512x1000_S1000x1000_1_0_0_1_n_n.rhsIdx_val_of_single rfl j k

theorem rhs_dot_1 (j : S1000x1000.Idx) (k : dot_S1000x512_S512x1000_S1000x1000_1_0_0_1_n_n.contr.Idx) :
    (dot_S1000x512_S512x1000_S1000x1000_1_0_0_1_n_n.rhsIdx j k 1).val = (j 1).val := by
  unfold DotDims.rhsIdx
  rw [dif_neg (show ¬ (1 : Fin S512x1000.rank) ∈ dot_S1000x512_S512x1000_S1000x1000_1_0_0_1_n_n.rhsBatch by decide),
    dif_pos (show (1 : Fin S512x1000.rank) ∈ dot_S1000x512_S512x1000_S1000x1000_1_0_0_1_n_n.rhsNonContracting by decide)]
  rfl

/-- A 1000 x 512 matrix times a 512 x 1000 matrix into the zero accumulator, at (a, b): the sum over the contracted
    coordinate of the products of the entries. -/
theorem matmul_apply' {φ₁ φ₂ : FTy} (A : FVec Ideal S1000x512 φ₁) (B : FVec Ideal S512x1000 φ₂) (a b : Fin 1000) :
    matmul dot_S1000x512_S512x1000_S1000x1000_1_0_0_1_n_n none A B (constant S1000x1000 .f32 0x00000000#32) (ix2 a b)
      = ∑ c : Fin 512, A (ix2 a c) * B (ix2 c b) := by
  refine (Ideal.matmul_constant_zero_apply dot_S1000x512_S512x1000_S1000x1000_1_0_0_1_n_n none A B (ix2 a b)).trans ?_
  rw [← Equiv.sum_comp (contrEquiv1 dot_S1000x512_S512x1000_S1000x1000_1_0_0_1_n_n 512 rfl rfl).symm]
  refine Finset.sum_congr rfl fun c _ => ?_
  have c2 := contrEquiv1_symm_val dot_S1000x512_S512x1000_S1000x1000_1_0_0_1_n_n 512 rfl rfl c
  have l2 : dot_S1000x512_S512x1000_S1000x1000_1_0_0_1_n_n.lhsIdx (ix2 a b) ((contrEquiv1 _ 512 rfl rfl).symm c) = ix2 a c := by
    funext ax; apply Fin.ext
    match ax with
    | ⟨0, _⟩ => exact lhs_dot_0 _ _
    | ⟨1, _⟩ => exact (lhs_dot_1 _ _).trans c2
  have r2 : dot_S1000x512_S512x1000_S1000x1000_1_0_0_1_n_n.rhsIdx (ix2 a b) ((contrEquiv1 _ 512 rfl rfl).symm c) = ix2 c b := by
    funext ax; apply Fin.ext
    match ax with
    | ⟨0, _⟩ => exact (rhs_dot_0 _ _).trans c2
    | ⟨1, _⟩ => exact rhs_dot_1 _ _
  rw [l2, r2]

/-! ## The clamped squared distances -/

/-- Entry (i, j) of the distance table: the squared distance between normalised rows i and j, clamped at zero. -/
theorem pay4_apply (x : Vec Ideal S1000x512 .f32) (i j : Fin 1000) :
    k0_pay4 (F := Ideal) x (ix2 i j) = Hug.d2 x i j := by
  unfold k0_pay4
  rw [maximumf_apply, subf_apply, addf_apply, mulf_apply, broadcast_apply, broadcast_apply,
    RowLayers.broadcastColumn_apply, broadcastTo_1b_ab_apply, transpose_ix2_apply, RowLayers.column_apply,
    RowLayers.column_apply, sq_apply, sq_apply, matmul_apply']
  unfold Hug.d2 Hug.gram
  have hg : (∑ c : Fin 512, k0_pay3 (F := Ideal) x (ix2 i c)
        * transpose S512x1000 [1, 0] (k0_pay3 (F := Ideal) x) transposes_S1000x512_p1_0_S512x1000 (ix2 c j))
      = ∑ k : Fin 512, Hug.unit x i k * Hug.unit x j k := by
    refine Finset.sum_congr rfl fun c _ => ?_
    rw [transpose_ix2_apply, wrow_apply, wrow_apply]
  rw [hg]
  rfl

/-! ## The mask of the counted pairs -/

/-- The signed comparison of two small position words is the comparison of the positions. -/
theorem sgt_pos (i j : Fin 1000) : IntOp.cmpi .sgt (BitVec.ofNat 32 j.val) (BitVec.ofNat 32 i.val) = 1#1 ↔ i.val < j.val := by
  have hi := i.isLt
  have hj := j.isLt
  rw [StableHlo.Predicate.sgt_iff_toNat (by simp only [BitVec.toNat_ofNat]; omega) (by simp only [BitVec.toNat_ofNat]; omega)]
  simp only [BitVec.toNat_ofNat]
  omega

/-- A conjunction of two bits is set exactly when both are. -/
theorem andi_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

/-- The mask is set at (i, j) exactly on the counted pairs. -/
theorem pay5_apply (x : Vec Ideal S1000x512 .f32) (i j : Fin 1000) :
    k0_pay5 (F := Ideal) x (ix2 i j) = 1#1 ↔ Hug.Far x i j := by
  unfold k0_pay5
  show IntOp.andi (IntOp.cmpi .sgt (iota .tc S1000x1000 32 [1] iota_S1000x1000_d1_w32 (ix2 i j))
      (iota .tc S1000x1000 32 [0] iota_S1000x1000_d0_w32 (ix2 i j)))
    (FloatOps.cmpf .ogt (k0_pay4 (F := Ideal) x (ix2 i j)) (FloatOps.ofBits (F := Ideal) .f32 0x00000000#32)) = 1#1 ↔ _
  rw [andi_one_iff, iota_single_apply, iota_single_apply, pay4_apply]
  show IntOp.cmpi .sgt (BitVec.ofNat 32 j.val) (BitVec.ofNat 32 i.val) = 1#1 ∧ _ ↔ _
  rw [sgt_pos]
  rfl

/-! ## The two sums over the counted pairs, and their quotient -/

/-- A select on a bit that is set exactly when P holds is the if-then-else on P. -/
theorem select_of_iff {α : Type} {c : BitVec 1} {P : Prop} [Decidable P] (h : c = 1#1 ↔ P) (a b : α) :
    Scalar.select c a b = if P then a else b := by
  show (if c = 1#1 then a else b) = _
  by_cases hp : P
  · rw [if_pos hp, if_pos (h.mpr hp)]
  · rw [if_neg hp, if_neg (fun e => hp (h.mp e))]

/-- A one-entry vector cast to a one-entry matrix reads that entry. -/
theorem one_apply {α : Type} (v : S1.Idx → α) : shapeCast S1x1 v shapeCasts_S1_S1x1 (ix2 (0 : Fin 1) (0 : Fin 1)) = v (ix1 (0 : Fin 1)) :=
  shapeCast_a_1a_apply v shapeCasts_S1_S1x1 0 0

open Classical in
/-- The one entry of the first sum: the reciprocal squared distances of the counted pairs, added row by row. -/
theorem pay6_apply (x : Vec Ideal S1000x512 .f32) :
    k0_pay6 (F := Ideal) x (ix2 (0 : Fin 1) (0 : Fin 1)) = Hug.wwNum x := by
  unfold k0_pay6
  rw [one_apply, colSum_apply]
  unfold Hug.wwNum
  refine Finset.sum_congr rfl fun i _ => ?_
  rw [RowLayers.column_apply, rowSum_apply]
  refine Finset.sum_congr rfl fun j _ => ?_
  rw [select_apply, divf_apply, select_apply, broadcast_apply, broadcast_apply, pay4_apply,
    select_of_iff (pay5_apply x i j), select_of_iff (pay5_apply x i j)]
  unfold Hug.inv
  by_cases h : Hug.Far x i j
  · rw [if_pos h, if_pos h, if_pos h]; rfl
  · rw [if_neg h, if_neg h]; rfl

open Classical in
/-- Entry i of the second sum: the number of counted pairs in row i. -/
theorem pay7_apply (x : Vec Ideal S1000x512 .f32) (i : Fin 1000) :
    k0_pay7 (F := Ideal) x (ix1 i) = ∑ j : Fin 1000, if Hug.Far x i j then (1 : EReal) else 0 := by
  unfold k0_pay7
  rw [rowSum_apply]
  refine Finset.sum_congr rfl fun j _ => ?_
  rw [sitofp_apply, extui_apply]
  show (((((k0_pay5 (F := Ideal) x (ix2 i j)).setWidth 32).toInt : ℤ) : ℝ) : EReal) = _
  by_cases h : Hug.Far x i j
  · rw [if_pos h, (pay5_apply x i j).mpr h, show ((1#1 : BitVec 1).setWidth 32).toInt = 1 from by decide]
    simp
  · have h0 : k0_pay5 (F := Ideal) x (ix2 i j) = 0#1 := by
      rcases BitVec.eq_zero_or_eq_one (k0_pay5 (F := Ideal) x (ix2 i j)) with h' | h'
      · exact h'
      · exact absurd ((pay5_apply x i j).mp h') h
    rw [if_neg h, h0, show ((0#1 : BitVec 1).setWidth 32).toInt = 0 from by decide]
    simp

/-- The quotient's one entry: the first sum's entry over the sum of the second's entries. -/
theorem pay1_apply (v40 : FVec Ideal S1x1 .f32) (v41 : FVec Ideal S1000 .f32) :
    k0_pay1 (F := Ideal) v40 v41 (ix2 (0 : Fin 1) (0 : Fin 1))
      = Ideal.div (v40 (ix2 (0 : Fin 1) (0 : Fin 1))) (∑ i : Fin 1000, v41 (ix1 i)) := by
  unfold k0_pay1
  rw [divf_apply, one_apply, colSum_apply]
  refine congrArg (Ideal.div _) (Finset.sum_congr rfl fun i _ => ?_)
  rw [RowLayers.column_apply]

/-- The one entry of the weight term: the summed reciprocal squared distances over the number of counted pairs. -/
theorem ww_apply (x : Vec Ideal S1000x512 .f32) :
    k0_pay1 (F := Ideal) (k0_pay6 x) (k0_pay7 x) (ix2 (0 : Fin 1) (0 : Fin 1)) = Ideal.div (Hug.wwNum x) (Hug.wwDen x) := by
  rw [pay1_apply, pay6_apply]
  unfold Hug.wwDen
  exact congrArg (Ideal.div _) (Finset.sum_congr rfl fun i _ => pay7_apply x i)

end Cert.KernelIdeal.KPay0

end
-- ==== Proof.KBlocks.lean ====
/-
  The second kernel's input blocks read at an index: at grid point t the feature block is rows 2048 t to 2048 t + 2047 of
  the feature matrix, the label block the same rows of the label column, and the table block the whole table.
-/
import proofs.«416468_j35811437314877_2_alg».proof.Proof.KNames
import proofs.«416468_j35811437314877_2_alg».proof.Proof.Spec

set_option maxRecDepth 16384

noncomputable section

open scoped BigOperators

namespace Cert.KernelIdeal.KBlocks

open Cert.KernelIdeal Cert.KernelIdeal.Gen Cert.KernelIdeal.KNames
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- The second kernel's input windows, over its 64 grid points: the feature and label windows' row-block index at
    point t is t, their column-block index 0; the table window's block indices are both 0. -/
theorem inWin1_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first kernel's input window at its one grid point: both block indices are 0. -/
theorem inWin0_index : ∀ t : Fin cfg0.N, win0_0.index t (0 : Fin 2) = 0 ∧ win0_0.index t (1 : Fin 2) = 0 :=
  (by decide +kernel : ∀ t : Fin grid0.N, _)

theorem featBlk_apply (c : Dev nD) (t : Fin cfg1.N) (n : Fin 2048) (d : Fin 512) :
    featBlk V c t (ix2 n d) = (V c main_arg0 : Vec F S131072x512 .f32) (ix2 (Hug.rowOf (t64 t) n) d) := by
  -- on each axis a block's coordinate is block index × block size + the coordinate inside the block
  obtain ⟨e0, e1, -, -, -, -⟩ := inWin1_index t
  show (V c main_arg0 : Vec F S131072x512 .f32) (((cfg1.win 0).blk t).view.emb (ix2 n d)) = _
  refine congrArg _ ?_
  funext a; apply Fin.ext
  match a with
  | ⟨0, _⟩ => show win1_0.index t (0 : Fin 2) * 2048 + 1 * n.val = 2048 * t.val + n.val; omega
  | ⟨1, _⟩ => show win1_0.index t (1 : Fin 2) * 512 + 1 * d.val = d.val; omega

theorem wBlk_apply (c : Dev nD) (t : Fin cfg1.N) (i : Fin 1000) (d : Fin 512) :
    wBlk V c t (ix2 i d) = (V c main_v0_0 : Vec F S1000x512 .bf16) (ix2 i d) := by
  -- both block indices are 0, so the block is the whole table
  obtain ⟨-, -, e2, e3, -, -⟩ := inWin1_index t
  show (V c main_v0_0 : Vec F S1000x512 .bf16) (((cfg1.win 1).blk t).view.emb (ix2 i d)) = _
  refine congrArg _ ?_
  funext a; apply Fin.ext
  match a with
  | ⟨0, _⟩ => show win1_1.index t (0 : Fin 2) * 1000 + 1 * i.val = i.val; omega
  | ⟨1, _⟩ => show win1_1.index t (1 : Fin 2) * 512 + 1 * d.val = d.val; omega

theorem tgtBlk_apply (c : Dev nD) (t : Fin cfg1.N) (n : Fin 2048) :
    tgtBlk V c t (ix2 n (0 : Fin 1)) = (V c main_v3 : Vec F S131072x1 .i32) (ix2 (Hug.rowOf (t64 t) n) (0 : Fin 1)) := by
  -- row-block index t, 2048 rows a block; the one column is column 0
  obtain ⟨-, -, -, -, e4, e5⟩ := inWin1_index t
  show (V c main_v3 : Vec F S131072x1 .i32) (((cfg1.win 2).blk t).view.emb (ix2 n (0 : Fin 1))) = _
  refine congrArg _ ?_
  funext a; apply Fin.ext
  match a with
  | ⟨0, _⟩ => show win1_2.index t (0 : Fin 2) * 2048 + 1 * n.val = 2048 * t.val + n.val; omega
  | ⟨1, _⟩ => show win1_2.index t (1 : Fin 2) * 1 + 1 * (0 : Fin 1).val = (0 : Fin 1).val; omega

/-- The first kernel's one block is the whole class-weight matrix. -/
theorem clsBlk_eq (c : Dev nD) (t : Fin cfg0.N) : clsBlk V c t = (V c main_arg1 : Vec F S1000x512 .f32) := by
  -- one grid point, both block indices 0: the block's index map is the identity
  obtain ⟨e0, e1⟩ := inWin0_index t
  funext j
  show (V c main_arg1 : Vec F S1000x512 .f32) (((cfg0.win 0).blk t).view.emb j) = _
  refine congrArg _ ?_
  funext a; apply Fin.ext
  match a with
  | ⟨0, _⟩ => show win0_0.index t (0 : Fin 2) * 1000 + 1 * (j 0).val = (j 0).val; omega
  | ⟨1, _⟩ => show win0_0.index t (1 : Fin 2) * 512 + 1 * (j 1).val = (j 1).val; omega

end Cert.KernelIdeal.KBlocks

end
-- ==== Proof.KReg0.lean ====
/-
  What the first kernel leaves in its two result arrays. Its grid has one point and every window's block is its whole
  array, so each result array holds exactly what the body stored: the normalised table, and the one-entry weight term.
-/
import proofs.«416468_j35811437314877_2_alg».proof.Proof.KNames
import proofs.«416468_j35811437314877_2_alg».proof.Proof.KBlocks
import Idealize.ShloMosaic.Lib.Pipeline.Value

set_option maxRecDepth 16384

noncomputable section

open scoped BigOperators

namespace Cert.KernelIdeal.KReg0

open Cert.KernelIdeal Cert.KernelIdeal.Gen Cert.KernelIdeal.KNames
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The zero offsets of the body's whole-buffer accesses. -/
theorem offsets_zero : (![0, 0] : Fin 2 → Nat) = fun _ => 0 := funext fun a => by fin_cases a <;> rfl

/-- The first kernel's two result windows at its one grid point: every block index is 0. -/
theorem outWin0_index : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The launch memory at the class-weight matrix is the matrix as launched. -/
theorem launch_cls (c : Dev nD) : (V0 m ρ c main_arg1 : Vec F S1000x512 .f32) = clsArr m c := rfl

/-! ## The table -/

/-- What a point writes back of the table window, for any contents x0 of the input block: the block of the table
    computed from x0 (the body's one store fills the staging buffer, and the block's index map is the identity). -/
theorem wbf_cut (x0 : Vec F S1000x512 .f32) (t : Fin cfg0.N) :
    (cfg0.win 1).cut (grid0.coords t) (out0_1 x0) = ((cfg0.win 1).blk t).view.read (Elt F) (k0_pay3 x0) := by
  unfold out0_1
  rw [View.canon_unit_zero offsets_zero]
  simp only [View.ld_unit_zero (S := S1000x512) offsets_zero]
  obtain ⟨e0, e1, -, -⟩ := outWin0_index t
  funext j
  show k0_pay3 x0 j = k0_pay3 x0 (((cfg0.win 1).blk t).view.emb j)
  refine congrArg _ ?_
  funext a; apply Fin.ext
  match a with
  | ⟨0, _⟩ => show (j 0).val = win0_1.index t (0 : Fin 2) * 1000 + 1 * (j 0).val; omega
  | ⟨1, _⟩ => show (j 1).val = win0_1.index t (1 : Fin 2) * 512 + 1 * (j 1).val; omega

/-- What point t writes back of the table window in the run: the block of the table computed from the matrix as launched. -/
theorem wbf_flushed (c : Dev nD) (t : Fin cfg0.N) :
    (dat0 (V0 m ρ) c).flushed 1 t = ((cfg0.win 1).blk t).view.read (Elt F) (k0_pay3 (clsArr m c)) := by
  show (cfg0.win 1).cut (grid0.coords t) ((dat0 (V0 m ρ) c).after 1 t) = _
  rw [after0_1]
  have hb : iblk0 (V0 m ρ) c 0 t = clsArr m c := (KBlocks.clsBlk_eq (V0 m ρ) c t).trans (launch_cls m ρ c)
  rw [hb]
  exact wbf_cut (clsArr m c) t

/-- An index of the table array is in point t's block iff each coordinate is in the block's range on its axis. -/
theorem wbf_mem (t : Fin cfg0.N) (i : S1000x512.Idx) :
    i ∈ ((cfg0.win 1).blk t).view.set ↔ ∀ a : Fin 2, win0_1.index t a * S1000x512.size a ≤ (i a).val ∧ (i a).val < win0_1.index t a * S1000x512.size a + S1000x512.size a := by
  show i ∈ ((View.whole main_v0_0).slice (win0_1.rect t)).set ↔ _
  rw [View.set_slice_whole, Rect.mem_set_unit]
  exact Iff.rfl

/-- The one point's block is the whole table array. -/
theorem wbf_cover (i : S1000x512.Idx) :
    ∃ t : Fin cfg0.N, (cfg0.win 1).flush t = true ∧ i ∈ ((cfg0.win 1).blk t).view.set := by
  refine ⟨t0_0, flush0_1 t0_0, ?_⟩
  rw [wbf_mem]
  obtain ⟨e0, e1, -, -⟩ := outWin0_index t0_0
  have hi0 : (i 0).val < 1000 := (i 0).isLt
  have hi1 : (i 1).val < 512 := (i 1).isLt
  intro a
  match a with
  | ⟨0, _⟩ => show win0_1.index t0_0 (0 : Fin 2) * 1000 ≤ (i 0).val ∧ (i 0).val < win0_1.index t0_0 (0 : Fin 2) * 1000 + 1000; omega
  | ⟨1, _⟩ => show win0_1.index t0_0 (1 : Fin 2) * 512 ≤ (i 1).val ∧ (i 1).val < win0_1.index t0_0 (1 : Fin 2) * 512 + 512; omega

/-! ## The one-entry weight term -/

/-- What a point writes back of the one-entry window, for any contents x0 of the input block: the block of the weight
    term computed from x0. -/
theorem ww_cut (x0 : Vec F S1000x512 .f32) (t : Fin cfg0.N) :
    (cfg0.win 2).cut (grid0.coords t) (out0_2 x0)
      = ((cfg0.win 2).blk t).view.read (Elt F) (k0_pay1 (k0_pay6 x0) (k0_pay7 x0)) := by
  unfold out0_2
  rw [View.canon_unit_zero offsets_zero]
  simp only [View.ld_unit_zero (S := S1000x512) offsets_zero]
  obtain ⟨-, -, e2, e3⟩ := outWin0_index t
  funext j
  show k0_pay1 (k0_pay6 x0) (k0_pay7 x0) j = k0_pay1 (k0_pay6 x0) (k0_pay7 x0) (((cfg0.win 2).blk t).view.emb j)
  refine congrArg _ ?_
  funext a; apply Fin.ext
  match a with
  | ⟨0, _⟩ => show (j 0).val = win0_2.index t (0 : Fin 2) * 1 + 1 * (j 0).val; omega
  | ⟨1, _⟩ => show (j 1).val = win0_2.index t (1 : Fin 2) * 1 + 1 * (j 1).val; omega

/-- What point t writes back of the one-entry window in the run: the weight term computed from the matrix as launched. -/
theorem ww_flushed (c : Dev nD) (t : Fin cfg0.N) :
    (dat0 (V0 m ρ) c).flushed 2 t
      = ((cfg0.win 2).blk t).view.read (Elt F) (k0_pay1 (k0_pay6 (clsArr m c)) (k0_pay7 (clsArr m c))) := by
  show (cfg0.win 2).cut (grid0.coords t) ((dat0 (V0 m ρ) c).after 2 t) = _
  rw [after0_2]
  have hb : iblk0 (V0 m ρ) c 0 t = clsArr m c := (KBlocks.clsBlk_eq (V0 m ρ) c t).trans (launch_cls m ρ c)
  rw [hb]
  exact ww_cut (clsArr m c) t

/-- An index of the one-entry array is in point t's block iff each coordinate is in the block's range on its axis. -/
theorem ww_mem (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v0_1).slice (win0_2.rect t)).set ↔ _
  rw [View.set_slice_whole, Rect.mem_set_unit]
  exact Iff.rfl

/-- The one point's block is the whole one-entry array. -/
theorem ww_cover (i : S1x1.Idx) :
    ∃ t : Fin cfg0.N, (cfg0.win 2).flush t = true ∧ i ∈ ((cfg0.win 2).blk t).view.set := by
  refine ⟨t0_0, flush0_2 t0_0, ?_⟩
  rw [ww_mem]
  obtain ⟨-, -, e2, e3⟩ := outWin0_index t0_0
  have hi0 : (i 0).val < 1 := (i 0).isLt
  have hi1 : (i 1).val < 1 := (i 1).isLt
  intro a
  match a with
  | ⟨0, _⟩ => show win0_2.index t0_0 (0 : Fin 2) * 1 ≤ (i 0).val ∧ (i 0).val < win0_2.index t0_0 (0 : Fin 2) * 1 + 1; omega
  | ⟨1, _⟩ => show win0_2.index t0_0 (1 : Fin 2) * 1 ≤ (i 1).val ∧ (i 1).val < win0_2.index t0_0 (1 : Fin 2) * 1 + 1; omega

/-! ## The two result arrays after the run -/

/-- The table array holds the body's one store of the table, computed from the class-weight matrix as launched. -/
theorem wbf_eq (c : Dev nD) : wbfArr m ρ c = k0_pay3 (clsArr m c) := by
  -- every index of the array is in the one point's block, and that point writes back the block of the table
  exact (dat0 (V0 m ρ) c).arrAt_eq_of_cover 1 (k0_pay3 (clsArr m c)) (fun t _ => wbf_flushed m ρ c t) wbf_cover

/-- The one-entry array holds the body's one store of the weight term. -/
theorem ww_eq (c : Dev nD) : wwArr m ρ c = k0_pay1 (k0_pay6 (clsArr m c)) (k0_pay7 (clsArr m c)) := by
  -- the same for the one-entry array
  exact (dat0 (V0 m ρ) c).arrAt_eq_of_cover 2 (k0_pay1 (k0_pay6 (clsArr m c)) (k0_pay7 (clsArr m c)))
    (fun t _ => ww_flushed m ρ c t) ww_cover

end Cert.KernelIdeal.KReg0

end
-- ==== Proof.KPay1.lean ====
/-
  The second kernel's arithmetic read at an index, at the exact instance: from one block of 2048 feature rows, the weight
  table and the block's 2048 labels, for every class q the number of the block's samples labelled q, added to the running
  count, and the summed distances of those samples to row q of the table.
-/
import proofs.«416468_j35811437314877_2_alg».proof.Proof.Gen.KernelIdeal.Skeleton
import proofs.«416468_j35811437314877_2_alg».proof.Proof.Spec
import proofs.«416468_j35811437314877_2_alg».proof.Proof.LibRowLayers

set_option maxRecDepth 16384

noncomputable section

open scoped BigOperators

namespace Cert.KernelIdeal.KPay1

open Cert.KernelIdeal Cert.KernelIdeal.Gen
open Idealize.ShloMosaic Idealize.ShloMosaic.ValueIdx

/-! ## Readings of the non-pointwise steps -/

/-- Putting row r back into the reduced index c of a reduction along the rows gives (r, c). -/
theorem lift_rows {m k : ℕ} (hred : (⟨2, ![m, k]⟩ : Shape).Reduces [0] ⟨1, ![k]⟩) (c : Fin k)
    (r : Fin ((⟨2, ![m, k]⟩ : Shape).size 0)) : hred.lift (ix1 c) r = ix2 (⟨r.val, r.isLt⟩ : Fin m) c := by
  funext a; apply Fin.ext
  fin_cases a <;> rfl

/-- A column's sum: a reduction along the rows, read at column c. -/
theorem colSum_apply {m k : ℕ} (hred : (⟨2, ![m, k]⟩ : Shape).Reduces [0] ⟨1, ![k]⟩) (hfmt : FKind.Formats FTy.f32)
    (hacc : (0x00000000#32 : BitVec FTy.f32.bits) = FKind.add.neutral .f32 hfmt)
    (x : FVec Ideal ⟨2, ![m, k]⟩ .f32) (c : Fin k) :
    multiReduction .add [0] ⟨1, ![k]⟩ x 0x00000000#32 hred hfmt hacc (ix1 c) = ∑ r : Fin m, x (ix2 r c) := by
  rw [Ideal.multiReduction_add_single]
  refine Finset.sum_congr rfl fun r _ => ?_
  rw [lift_rows]; rfl

/-- The equality test of two words answers one exactly when the words are equal. -/
theorem cmpi_eq_one_iff {w : ℕ} (a b : BitVec w) : IntOp.cmpi .eq a b = 1#1 ↔ a = b := by
  have hb : ∀ t : Bool, BitVec.ofBool t = 1#1 ↔ t = true := by intro t; cases t <;> decide
  show BitVec.ofBool (a == b) = 1#1 ↔ a = b
  rw [hb, beq_iff_eq]

/-- Numbers below 1000 are told apart by their 32-bit words. -/
theorem ofNat_inj (c q : Fin 1000) : BitVec.ofNat 32 c.val = BitVec.ofNat 32 q.val ↔ c = q := by
  constructor
  · intro h
    have h' := congrArg BitVec.toNat h
    simp only [BitVec.toNat_ofNat] at h'
    apply Fin.ext
    have := c.isLt; have := q.isLt
    omega
  · rintro rfl; rfl

/-- A one-bit word widened to 32 bits and read as a signed integer is 1 or 0. -/
theorem bit_toReal (b : BitVec 1) :
    (FloatOps.sitofp (F := Ideal) .f32 (b.setWidth 32) : EReal) = if b = 1#1 then 1 else 0 := by
  by_cases h : b = 1#1
  · subst h
    rw [if_pos rfl]
    show (((((1#1 : BitVec 1).setWidth 32).toInt : ℝ)) : EReal) = 1
    have : ((1#1 : BitVec 1).setWidth 32).toInt = 1 := by decide
    rw [this]; norm_num
  · have h0 := eq_zero_of_ne_one h
    subst h0
    rw [if_neg (by decide)]
    show (((((0#1 : BitVec 1).setWidth 32).toInt : ℝ)) : EReal) = 0
    have : ((0#1 : BitVec 1).setWidth 32).toInt = 0 := by decide
    rw [this]; norm_num

/-- The label test at (n, c): is sample n's label word the word of c. -/
theorem pay4_apply (tg : Vec Ideal S2048x1 .i32) (n : Fin 2048) (c : Fin 1000) :
    k1_pay4 (F := Ideal) tg (ix2 n c) = IntOp.cmpi .eq (tg (ix2 n (0 : Fin 1))) (BitVec.ofNat 32 c.val) := by
  show IntOp.cmpi .eq (broadcastTo S2048x1000 (shapeCast S2048x1 tg shapeCasts_S2048x1_S2048x1) broadcasts_S2048x1_S2048x1000 (ix2 n c))
    (iota .tc S2048x1000 32 [1] iota_S2048x1000_d1_w32 (ix2 n c)) = _
  rw [RowLayers.broadcastColumn_apply, shapeCast_self, iota_single_apply]

/-- The label test as a number: 1 where sample n is labelled c, 0 elsewhere. -/
theorem hot_apply (tg : Vec Ideal S2048x1 .i32) (n : Fin 2048) (c : Fin 1000) :
    (sitofp .f32 (extui 32 (k1_pay4 (F := Ideal) tg) natLt_1_32) : FVec Ideal S2048x1000 .f32) (ix2 n c)
      = if tg (ix2 n (0 : Fin 1)) = BitVec.ofNat 32 c.val then 1 else 0 := by
  show FloatOps.sitofp (F := Ideal) .f32 ((k1_pay4 (F := Ideal) tg (ix2 n c)).setWidth 32) = _
  rw [bit_toReal, pay4_apply]
  by_cases h : tg (ix2 n (0 : Fin 1)) = BitVec.ofNat 32 c.val
  · rw [if_pos ((cmpi_eq_one_iff _ _).2 h), if_pos h]
  · rw [if_neg (fun h' => h ((cmpi_eq_one_iff _ _).1 h')), if_neg h]

/-- An entry divided by its row's Euclidean length: the tiled spelling, at (r, j). -/
theorem rowUnit_apply {m k : ℕ} (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (sqrt (shapeCast ⟨2, ![m, 1]⟩ (multiReduction .add [1] ⟨1, ![m]⟩ (mulf x x) 0x00000000#32 hred hfmt hacc) hsc)) hbc) (ix2 r j)
      = Hug.unit x r j := by
  rw [divf_apply, RowLayers.broadcastColumn_apply]
  show Ideal.div _ (Ideal.sqrt (shapeCast _ _ hsc (ix2 r (0 : Fin 1)))) = _
  rw [RowLayers.column_apply, RowLayers.rowSquares_apply]
  rfl

/-- The Euclidean length of a row, kept as a column: at (r, 0). -/
theorem rowLength_apply {m k : ℕ} (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩)
    (y : FVec Ideal ⟨2, ![m, k]⟩ .f32) (r : Fin m) :
    sqrt (shapeCast ⟨2, ![m, 1]⟩ (multiReduction .add [1] ⟨1, ![m]⟩ (mulf y y) 0x00000000#32 hred hfmt hacc) hsc) (ix2 r (0 : Fin 1))
      = Ideal.sqrt (∑ c : Fin k, y (ix2 r c) * y (ix2 r c)) := by
  show Ideal.sqrt (shapeCast _ _ hsc (ix2 r (0 : Fin 1))) = _
  rw [RowLayers.column_apply, RowLayers.rowSquares_apply]

/-- An m×k matrix times a k×n matrix, accumulated into the zero splat, at (a, b): the sum over the contracted
    coordinate of the products of the entries. -/
theorem matmulPlain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- Row n of the one-hot matrix times the table is row q of the table, when sample n is labelled q. -/
theorem hotRow_apply (wb : FVec Ideal S1000x512 .bf16) (tg : Vec Ideal S2048x1 .i32) (n : Fin 2048) (q : Fin 1000) (d : Fin 512)
    (h : tg (ix2 n (0 : Fin 1)) = BitVec.ofNat 32 q.val) :
    ∑ c : Fin 1000, (truncf .bf16 (sitofp .f32 (extui 32 (k1_pay4 (F := Ideal) tg) natLt_1_32) : FVec Ideal S2048x1000 .f32) bitsLt_bf16_f32 : FVec Ideal S2048x1000 .bf16) (ix2 n c) * wb (ix2 c d)
      = wb (ix2 q d) := by
  rw [Finset.sum_eq_single q]
  · rw [truncf_apply, hot_apply, if_pos h, one_mul]
  · intro c _ hc
    rw [truncf_apply, hot_apply, if_neg, zero_mul]
    intro h'
    exact hc ((ofNat_inj c q).1 (h'.symm.trans h))
  · intro hq; exact absurd (Finset.mem_univ q) hq

/-! ## The payloads at an index -/

/-- The running count of class q after this block: what was there plus the block's samples labelled q. -/
theorem count_apply (tg : Vec Ideal S2048x1 .i32) (prev : Vec Ideal S1x1000 .f32) (q : Fin 1000) :
    k1_pay6 (F := Ideal) tg prev (ix2 (0 : Fin 1) q) = prev (ix2 (0 : Fin 1) q) + Hug.pcount tg q := by
  show shapeCast S1x1000 prev shapeCasts_S1x1000_S1x1000 (ix2 (0 : Fin 1) q)
      + shapeCast S1x1000 (multiReduction .add [0] S1000 (sitofp .f32 (extui 32 (k1_pay4 (F := Ideal) tg) natLt_1_32) : FVec Ideal S2048x1000 .f32)
          0x00000000#32 reduces_S2048x1000_S1000 (.inl rfl) rfl) shapeCasts_S1000_S1x1000 (ix2 (0 : Fin 1) q) = _
  rw [shapeCast_self, shapeCast_a_1a_apply]
  refine congrArg (prev (ix2 (0 : Fin 1) q) + ·) ?_
  refine (colSum_apply _ _ _ _ q).trans ?_
  unfold Hug.pcount
  refine Finset.sum_congr rfl fun n _ => ?_
  rw [hot_apply]

/-- The block's summed distances for class q: the one-hot product picks row q of the table for a sample labelled q. -/
theorem dsum_apply (x : Vec Ideal S2048x512 .f32) (wb : Vec Ideal S1000x512 .bf16) (tg : Vec Ideal S2048x1 .i32) (q : Fin 1000) :
    k1_pay5 (F := Ideal) x wb tg (ix2 (0 : Fin 1) q) = Hug.psum x wb tg q := by
  unfold k1_pay5
  dsimp only
  rw [shapeCast_a_1a_apply]
  refine (colSum_apply _ _ _ _ q).trans ?_
  unfold Hug.psum
  refine Finset.sum_congr rfl fun n _ => ?_
  rw [select_apply, pay4_apply]
  by_cases h : tg (ix2 n (0 : Fin 1)) = BitVec.ofNat 32 q.val
  · -- a sample labelled q: its distance to row q of the table
    rw [if_pos h, (cmpi_eq_one_iff _ _).2 h, select_one, RowLayers.broadcastColumn_apply, shapeCast_self]
    refine (rowLength_apply _ _ _ _ _ n).trans ?_
    unfold Hug.bdist
    refine congrArg Ideal.sqrt (Finset.sum_congr rfl fun d _ => ?_)
    have e1 := rowUnit_apply reduces_S2048x512_S2048 (.inl rfl) rfl shapeCasts_S2048_S2048x1 broadcasts_S2048x1_S2048x512 x n d
    have e2 : matmul dot_S2048x1000_S1000x512_S2048x512_1_0_0_1_n_n none
        (truncf .bf16 (sitofp .f32 (extui 32 (k1_pay4 (F := Ideal) tg) natLt_1_32) : FVec Ideal S2048x1000 .f32) bitsLt_bf16_f32 : FVec Ideal S2048x1000 .bf16)
        (shapeCast S1000x512 wb shapeCasts_S1000x512_S1000x512 : FVec Ideal S1000x512 .bf16) (constant S2048x512 .f32 0x00000000#32) (ix2 n d) = wb (ix2 q d) := by
      refine (matmulPlain_apply (m := 2048) (k := 1000) (n := 512) none _ _ n d).trans ?_
      rw [shapeCast_self]
      exact hotRow_apply wb tg n q d h
    exact congrArg₂ (fun a b : EReal => (a - b) * (a - b)) e1 e2
  · -- any other sample adds the zero word
    have hz : IntOp.cmpi .eq (tg (ix2 n (0 : Fin 1))) (BitVec.ofNat 32 q.val) = 0#1 :=
      eq_zero_of_ne_one (fun h' => h ((cmpi_eq_one_iff _ _).1 h'))
    rw [if_neg h, hz, select_zero, broadcast_apply]
    exact Ideal.ofBits_zero_f32

/-- The running sum after this block: what was there plus the block's summed distances. -/
theorem acc_apply (v35 : FVec Ideal S1x1000 .f32) (v40 : Vec Ideal S1x1000 .f32) (q : Fin 1000) :
    k1_pay1 (F := Ideal) v35 v40 (ix2 (0 : Fin 1) q) = v40 (ix2 (0 : Fin 1) q) + v35 (ix2 (0 : Fin 1) q) := by
  show shapeCast S1x1000 v40 shapeCasts_S1x1000_S1x1000 (ix2 (0 : Fin 1) q) + v35 (ix2 (0 : Fin 1) q) = _
  rw [shapeCast_self]

/-- The two reset blocks are zero everywhere. -/
theorem zero3_apply (j : S8x1000.Idx) : k1_pay2 (F := Ideal) j = Hug.zeroF := by
  rfl

theorem zero4_apply (j : S8x1000.Idx) : k1_pay3 (F := Ideal) j = Hug.zeroF := by
  rfl

end Cert.KernelIdeal.KPay1

end
-- ==== Proof.KReg1.lean ====
/-
  What the second kernel leaves in its two result arrays of sixteen rows. The grid is 2 halves by 32 steps; a half's eight
  result rows are reset to zero at the half's first step, row 0 of them gains the block's per-class counts (or summed
  distances) at every step, and the eight rows are written back once, after the half's last step. So rows 8 o + 1 to
  8 o + 7 end at zero and row 8 o ends at zero plus the 32 blocks' contributions of half o.
-/
import proofs.«416468_j35811437314877_2_alg».proof.Proof.KNames
import proofs.«416468_j35811437314877_2_alg».proof.Proof.KPay1
import proofs.«416468_j35811437314877_2_alg».proof.Proof.Spec
import Idealize.ShloMosaic.Lib.Pipeline.Value
import Idealize.ShloMosaic.Lib.WritesUnit
import Idealize.ShloMosaic.Lib.Tactic

set_option maxRecDepth 16384

noncomputable section

open scoped BigOperators

namespace Cert.KernelIdeal.KReg1

open Cert.KernelIdeal Cert.KernelIdeal.Gen Cert.KernelIdeal.KNames
open Idealize.ShloMosaic Idealize.ShloMosaic.TcCoe Idealize.ShloMosaic.ValueIdx Idealize.SL.Sem
open Idealize.ShloMosaic.Pipeline (Dat)

namespace Carry

/-! ## What one grid point leaves in the two carried blocks, entry by entry, for any float instance

A point of a half's first step stores the zero block over all eight rows and then, into row 0, the step's payload
computed from row 0 of that zero block; any other point stores into row 0 the payload computed from row 0 of what
the point before left, and leaves rows 1 to 7 as they were. -/

section Pieces

variable {F : FTy → Type} [FloatOps F]

theorem hz : (![0, 0] : Fin 2 → Nat) = fun _ => 0 := funext fun a => by fin_cases a <;> rfl

/-- Row 0 of a block of eight rows of a thousand, as a rectangle of the block. -/
abbrev row0 : Rect S8x1000 := Rect.unit (s := S8x1000) ![0, 0] S1x1000.size inb_S8x1000_S1x1000_0_0

/-- Entry q of row 0 of the block is entry (0, q) of the block. -/
theorem row0_idx (q : Fin 1000) : row0.idx (ix2 (0 : Fin 1) q) = ix2 (0 : Fin 8) q := by
  funext a; apply Fin.ext
  match a with
  | ⟨0, _⟩ => rfl
  | ⟨1, _⟩ => show 0 + 1 * q.val = q.val; omega

/-- A load of row 0 after one store of the whole block reads row 0 of what was stored. -/
theorem readCov_row0 {sg : RefSig} {κ : Kind} {sp : Space} (v : View sg κ sp S8x1000 .f32) (w : S8x1000.Idx → Elt F .f32) :
    v.readCov [(⟨Rect.unit (s := S8x1000) ![0, 0] S8x1000.size inb_S8x1000_S8x1000_0_0, w⟩ : View.Piece (Elt F) S8x1000 .f32)] row0.toLoadRect
      = View.ld w row0 := by
  rw [View.readCov_eq_canon_ld _ _ _ (fun y => ⟨_, List.mem_singleton_self _, View.mem_set_unit_zero hz inb_S8x1000_S8x1000_0_0 y⟩),
    View.canon_unit_zero hz]

/-- First step of a half, counts, row 0: the count payload over row 0 of the zero block. -/
theorem A3_row0 (c : Dev nD) (i : grid1.Coords) (a2 : Memref sig .tc .vmem S2048x512 .f32) (h2 : a2.IsWhole) (a3 : Memref sig .tc .vmem S1000x512 .bf16) (h3 : a3.IsWhole) (a4 : Memref sig .tc .vmem S2048x1 .i32) (h4 : a4.IsWhole) (a5 : Memref sig .tc .vmem S8x1000 .f32) (h5 : a5.IsWhole) (a6 : Memref sig .tc .vmem S8x1000 .f32) (h6 : a6.IsWhole) (hc : cond1_0 i) (x0 : Vec F S2048x512 .f32) (x1 : Vec F S1000x512 .bf16) (x2 : Vec F S2048x1 .i32) (q : Fin 1000) :
    out1_A_3 c i a2 h2 a3 h3 a4 h4 a5 h5 a6 h6 hc x0 x1 x2 (ix2 (0 : Fin 8) q) = k1_pay6 x2 (View.ld (k1_pay2 (F := F)) row0) (ix2 (0 : Fin 1) q) := by
  unfold out1_A_3 kernelRun1_A
  dsimp only
  sl_unfold_words
  refine (View.read_writes_cons_rows_of_mem VO1_3 _ inb_S8x1000_S1x1000_0_0 _ _ (ix2 (0 : Fin 8) q) (ix2 (0 : Fin 1) q) rfl rfl rfl).trans ?_
  rw [readCov_row0, View.readAt_eq_ld, h4.read_unread, View.ld_unit_zero (S := S2048x1) hz]

/-- First step of a half, counts, rows 1 to 7: the zero block. -/
theorem A3_rest (c : Dev nD) (i : grid1.Coords) (a2 : Memref sig .tc .vmem S2048x512 .f32) (h2 : a2.IsWhole) (a3 : Memref sig .tc .vmem S1000x512 .bf16) (h3 : a3.IsWhole) (a4 : Memref sig .tc .vmem S2048x1 .i32) (h4 : a4.IsWhole) (a5 : Memref sig .tc .vmem S8x1000 .f32) (h5 : a5.IsWhole) (a6 : Memref sig .tc .vmem S8x1000 .f32) (h6 : a6.IsWhole) (hc : cond1_0 i) (x0 : Vec F S2048x512 .f32) (x1 : Vec F S1000x512 .bf16) (x2 : Vec F S2048x1 .i32) (s : Fin 8) (hs : s.val ≠ 0) (q : Fin 1000) :
    out1_A_3 c i a2 h2 a3 h3 a4 h4 a5 h5 a6 h6 hc x0 x1 x2 (ix2 s q) = k1_pay2 (F := F) (ix2 s q) := by
  unfold out1_A_3 kernelRun1_A
  dsimp only
  sl_unfold_words
  refine (View.read_writes_cons_rows_of_not_mem (o := 0) (W := 1) VO1_3 _ inb_S8x1000_S1x1000_0_0 _ _ (ix2 s q) rfl rfl (Or.inr (by show 0 + 1 ≤ s.val; omega))).trans ?_
  exact View.read_writes_cons_rows_of_mem (o := 0) VO1_3 _ inb_S8x1000_S8x1000_0_0 _ _ (ix2 s q) (ix2 s q) rfl (by show s.val = 0 + s.val; omega) rfl

/-- First step of a half, sums, row 0: the accumulation payload over row 0 of the zero block. -/
theorem A4_row0 (c : Dev nD) (i : grid1.Coords) (a2 : Memref sig .tc .vmem S2048x512 .f32) (h2 : a2.IsWhole) (a3 : Memref sig .tc .vmem S1000x512 .bf16) (h3 : a3.IsWhole) (a4 : Memref sig .tc .vmem S2048x1 .i32) (h4 : a4.IsWhole) (a5 : Memref sig .tc .vmem S8x1000 .f32) (h5 : a5.IsWhole) (a6 : Memref sig .tc .vmem S8x1000 .f32) (h6 : a6.IsWhole) (hc : cond1_0 i) (x0 : Vec F S2048x512 .f32) (x1 : Vec F S1000x512 .bf16) (x2 : Vec F S2048x1 .i32) (q : Fin 1000) :
    out1_A_4 c i a2 h2 a3 h3 a4 h4 a5 h5 a6 h6 hc x0 x1 x2 (ix2 (0 : Fin 8) q) = k1_pay1 (k1_pay5 x0 x1 x2) (View.ld (k1_pay3 (F := F)) row0) (ix2 (0 : Fin 1) q) := by
  unfold out1_A_4 kernelRun1_A
  dsimp only
  sl_unfold_words
  refine (View.read_writes_cons_rows_of_mem VO1_4 _ inb_S8x1000_S1x1000_0_0 _ _ (ix2 (0 : Fin 8) q) (ix2 (0 : Fin 1) q) rfl rfl rfl).trans ?_
  rw [readCov_row0]
  simp only [View.readAt_eq_ld, h2.read_unread, h3.read_unread, h4.read_unread, View.ld_unit_zero (S := S2048x1) hz,
    View.ld_unit_zero (S := S2048x512) hz, View.ld_unit_zero (S := S1000x512) hz]

/-- First step of a half, sums, rows 1 to 7: the zero block. -/
theorem A4_rest (c : Dev nD) (i : grid1.Coords) (a2 : Memref sig .tc .vmem S2048x512 .f32) (h2 : a2.IsWhole) (a3 : Memref sig .tc .vmem S1000x512 .bf16) (h3 : a3.IsWhole) (a4 : Memref sig .tc .vmem S2048x1 .i32) (h4 : a4.IsWhole) (a5 : Memref sig .tc .vmem S8x1000 .f32) (h5 : a5.IsWhole) (a6 : Memref sig .tc .vmem S8x1000 .f32) (h6 : a6.IsWhole) (hc : cond1_0 i) (x0 : Vec F S2048x512 .f32) (x1 : Vec F S1000x512 .bf16) (x2 : Vec F S2048x1 .i32) (s : Fin 8) (hs : s.val ≠ 0) (q : Fin 1000) :
    out1_A_4 c i a2 h2 a3 h3 a4 h4 a5 h5 a6 h6 hc x0 x1 x2 (ix2 s q) = k1_pay3 (F := F) (ix2 s q) := by
  unfold out1_A_4 kernelRun1_A
  dsimp only
  sl_unfold_words
  refine (View.read_writes_cons_rows_of_not_mem (o := 0) (W := 1) VO1_4 _ inb_S8x1000_S1x1000_0_0 _ _ (ix2 s q) rfl rfl (Or.inr (by show 0 + 1 ≤ s.val; omega))).trans ?_
  exact View.read_writes_cons_rows_of_mem (o := 0) VO1_4 _ inb_S8x1000_S8x1000_0_0 _ _ (ix2 s q) (ix2 s q) rfl (by show s.val = 0 + s.val; omega) rfl

/-- A later step, counts, row 0: the count payload over row 0 of what the step before left. -/
theorem B3_row0 (c : Dev nD) (i : grid1.Coords) (a2 : Memref sig .tc .vmem S2048x512 .f32) (h2 : a2.IsWhole) (a3 : Memref sig .tc .vmem S1000x512 .bf16) (h3 : a3.IsWhole) (a4 : Memref sig .tc .vmem S2048x1 .i32) (h4 : a4.IsWhole) (a5 : Memref sig .tc .vmem S8x1000 .f32) (h5 : a5.IsWhole) (a6 : Memref sig .tc .vmem S8x1000 .f32) (h6 : a6.IsWhole) (hc : ¬cond1_0 i) (x0 : Vec F S2048x512 .f32) (x1 : Vec F S1000x512 .bf16) (x2 : Vec F S2048x1 .i32) (xo3 xo4 : Vec F S8x1000 .f32) (q : Fin 1000) :
    out1_B_3 c i a2 h2 a3 h3 a4 h4 a5 h5 a6 h6 hc x0 x1 x2 xo3 xo4 (ix2 (0 : Fin 8) q) = k1_pay6 x2 (View.ld xo3 row0) (ix2 (0 : Fin 1) q) := by
  unfold out1_B_3 kernelRun1_B
  dsimp only
  sl_unfold_words
  refine (View.read_writes_cons_rows_of_mem a5.view _ inb_S8x1000_S1x1000_0_0 _ _ (ix2 (0 : Fin 8) q) (ix2 (0 : Fin 1) q) rfl rfl rfl).trans ?_
  simp only [View.readAt_eq_ld, h4.read_unread, h5.read_unread, View.ld_unit_zero (S := S2048x1) hz]

/-- A later step, counts, rows 1 to 7: what the step before left. -/
theorem B3_rest (c : Dev nD) (i : grid1.Coords) (a2 : Memref sig .tc .vmem S2048x512 .f32) (h2 : a2.IsWhole) (a3 : Memref sig .tc .vmem S1000x512 .bf16) (h3 : a3.IsWhole) (a4 : Memref sig .tc .vmem S2048x1 .i32) (h4 : a4.IsWhole) (a5 : Memref sig .tc .vmem S8x1000 .f32) (h5 : a5.IsWhole) (a6 : Memref sig .tc .vmem S8x1000 .f32) (h6 : a6.IsWhole) (hc : ¬cond1_0 i) (x0 : Vec F S2048x512 .f32) (x1 : Vec F S1000x512 .bf16) (x2 : Vec F S2048x1 .i32) (xo3 xo4 : Vec F S8x1000 .f32) (s : Fin 8) (hs : s.val ≠ 0) (q : Fin 1000) :
    out1_B_3 c i a2 h2 a3 h3 a4 h4 a5 h5 a6 h6 hc x0 x1 x2 xo3 xo4 (ix2 s q) = xo3 (ix2 s q) := by
  unfold out1_B_3 kernelRun1_B
  dsimp only
  sl_unfold_words
  refine (View.read_writes_cons_rows_of_not_mem (o := 0) (W := 1) a5.view _ inb_S8x1000_S1x1000_0_0 _ _ (ix2 s q) rfl rfl (Or.inr (by show 0 + 1 ≤ s.val; omega))).trans ?_
  exact congrFun (h5.read_unread xo3) (ix2 s q)

/-- A later step, sums, row 0: the accumulation payload over row 0 of what the step before left. -/
theorem B4_row0 (c : Dev nD) (i : grid1.Coords) (a2 : Memref sig .tc .vmem S2048x512 .f32) (h2 : a2.IsWhole) (a3 : Memref sig .tc .vmem S1000x512 .bf16) (h3 : a3.IsWhole) (a4 : Memref sig .tc .vmem S2048x1 .i32) (h4 : a4.IsWhole) (a5 : Memref sig .tc .vmem S8x1000 .f32) (h5 : a5.IsWhole) (a6 : Memref sig .tc .vmem S8x1000 .f32) (h6 : a6.IsWhole) (hc : ¬cond1_0 i) (x0 : Vec F S2048x512 .f32) (x1 : Vec F S1000x512 .bf16) (x2 : Vec F S2048x1 .i32) (xo3 xo4 : Vec F S8x1000 .f32) (q : Fin 1000) :
    out1_B_4 c i a2 h2 a3 h3 a4 h4 a5 h5 a6 h6 hc x0 x1 x2 xo3 xo4 (ix2 (0 : Fin 8) q) = k1_pay1 (k1_pay5 x0 x1 x2) (View.ld xo4 row0) (ix2 (0 : Fin 1) q) := by
  unfold out1_B_4 kernelRun1_B
  dsimp only
  sl_unfold_words
  refine (View.read_writes_cons_rows_of_mem a6.view _ inb_S8x1000_S1x1000_0_0 _ _ (ix2 (0 : Fin 8) q) (ix2 (0 : Fin 1) q) rfl rfl rfl).trans ?_
  simp only [View.readAt_eq_ld, h2.read_unread, h3.read_unread, h4.read_unread, h6.read_unread, View.ld_unit_zero (S := S2048x1) hz,
    View.ld_unit_zero (S := S2048x512) hz, View.ld_unit_zero (S := S1000x512) hz]

/-- A later step, sums, rows 1 to 7: what the step before left. -/
theorem B4_rest (c : Dev nD) (i : grid1.Coords) (a2 : Memref sig .tc .vmem S2048x512 .f32) (h2 : a2.IsWhole) (a3 : Memref sig .tc .vmem S1000x512 .bf16) (h3 : a3.IsWhole) (a4 : Memref sig .tc .vmem S2048x1 .i32) (h4 : a4.IsWhole) (a5 : Memref sig .tc .vmem S8x1000 .f32) (h5 : a5.IsWhole) (a6 : Memref sig .tc .vmem S8x1000 .f32) (h6 : a6.IsWhole) (hc : ¬cond1_0 i) (x0 : Vec F S2048x512 .f32) (x1 : Vec F S1000x512 .bf16) (x2 : Vec F S2048x1 .i32) (xo3 xo4 : Vec F S8x1000 .f32) (s : Fin 8) (hs : s.val ≠ 0) (q : Fin 1000) :
    out1_B_4 c i a2 h2 a3 h3 a4 h4 a5 h5 a6 h6 hc x0 x1 x2 xo3 xo4 (ix2 s q) = xo4 (ix2 s q) := by
  unfold out1_B_4 kernelRun1_B
  dsimp only
  sl_unfold_words
  refine (View.read_writes_cons_rows_of_not_mem (o := 0) (W := 1) a6.view _ inb_S8x1000_S1x1000_0_0 _ _ (ix2 s q) rfl rfl (Or.inr (by show 0 + 1 ≤ s.val; omega))).trans ?_
  exact congrFun (h6.read_unread xo4) (ix2 s q)

end Pieces

/-! ## The same at a grid point, at the exact instance -/

section AtPoint

variable (V : (c : Dev nD) → (b : Ref sig .tc) → Buf (Elt Ideal) ((c : Thread nD τ).loc b))

/-- The carried pair does not depend on how the point's number is written. -/
theorem outsAt1_congr (c : Dev nD) {n n' : ℕ} (e : n = n') (h : n < cfg1.N) (h' : n' < cfg1.N) :
    outsAt1 V c n h = outsAt1 V c n' h' := by subst e; rfl

theorem A3_at0 (c : Dev nD) (t : Fin cfg1.N) (h0 : t.val % 32 = 0) (s : Fin 8) (hs : s.val = 0) (q : Fin 1000) :
    (outsAt1 V c t.val t.isLt).1 (ix2 s q) = Hug.zeroF + Hug.pcount (tgtBlk V c t) q := by
  obtain rfl : s = (0 : Fin 8) := Fin.ext hs
  rw [outsAt1_A V c t h0]
  dsimp only
  refine (A3_row0 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) q).trans ?_
  refine (KPay1.count_apply (tgtBlk V c t) (View.ld (k1_pay2 (F := Ideal)) row0) q).trans ?_
  exact congrArg (· + Hug.pcount (tgtBlk V c t) q) ((congrArg (k1_pay2 (F := Ideal)) (row0_idx q)).trans (KPay1.zero3_apply _))

theorem A3_atS (c : Dev nD) (t : Fin cfg1.N) (h0 : t.val % 32 = 0) (s : Fin 8) (hs : s.val ≠ 0) (q : Fin 1000) :
    (outsAt1 V c t.val t.isLt).1 (ix2 s q) = Hug.zeroF := by
  rw [outsAt1_A V c t h0]
  dsimp only
  exact (A3_rest (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) s hs q).trans (KPay1.zero3_apply _)

theorem A4_at0 (c : Dev nD) (t : Fin cfg1.N) (h0 : t.val % 32 = 0) (s : Fin 8) (hs : s.val = 0) (q : Fin 1000) :
    (outsAt1 V c t.val t.isLt).2 (ix2 s q) = Hug.zeroF + Hug.psum (featBlk V c t) (wBlk V c t) (tgtBlk V c t) q := by
  obtain rfl : s = (0 : Fin 8) := Fin.ext hs
  rw [outsAt1_A V c t h0]
  dsimp only
  refine (A4_row0 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) q).trans ?_
  refine (KPay1.acc_apply (k1_pay5 (F := Ideal) (featBlk V c t) (wBlk V c t) (tgtBlk V c t)) (View.ld (k1_pay3 (F := Ideal)) row0) q).trans ?_
  rw [KPay1.dsum_apply]
  exact congrArg (· + Hug.psum (featBlk V c t) (wBlk V c t) (tgtBlk V c t) q) ((congrArg (k1_pay3 (F := Ideal)) (row0_idx q)).trans (KPay1.zero4_apply _))

theorem A4_atS (c : Dev nD) (t : Fin cfg1.N) (h0 : t.val % 32 = 0) (s : Fin 8) (hs : s.val ≠ 0) (q : Fin 1000) :
    (outsAt1 V c t.val t.isLt).2 (ix2 s q) = Hug.zeroF := by
  rw [outsAt1_A V c t h0]
  dsimp only
  exact (A4_rest (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t) s hs q).trans (KPay1.zero4_apply _)

end AtPoint

section AtPointB

variable (V : (c : Dev nD) → (b : Ref sig .tc) → Buf (Elt Ideal) ((c : Thread nD τ).loc b))

theorem B3_at0 (c : Dev nD) (t : Fin cfg1.N) (h0 : ¬t.val % 32 = 0) (n : ℕ) (hn : n + 1 = t.val) (hlt : n < cfg1.N)
    (s : Fin 8) (hs : s.val = 0) (q : Fin 1000) :
    (outsAt1 V c t.val t.isLt).1 (ix2 s q) = (outsAt1 V c n hlt).1 (ix2 s q) + Hug.pcount (tgtBlk V c t) q := by
  obtain rfl : s = (0 : Fin 8) := Fin.ext hs
  rw [outsAt1_B V c t h0, outsAt1_congr V c (show t.val - 1 = n by omega) _ hlt]
  dsimp only
  refine (B3_row0 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c n hlt).1 (outsAt1 V c n hlt).2 q).trans ?_
  refine (KPay1.count_apply (tgtBlk V c t) (View.ld (outsAt1 V c n hlt).1 row0) q).trans ?_
  exact congrArg (· + Hug.pcount (tgtBlk V c t) q) (congrArg (outsAt1 V c n hlt).1 (row0_idx q))

theorem B3_atS (c : Dev nD) (t : Fin cfg1.N) (h0 : ¬t.val % 32 = 0) (n : ℕ) (hn : n + 1 = t.val) (hlt : n < cfg1.N)
    (s : Fin 8) (hs : s.val ≠ 0) (q : Fin 1000) :
    (outsAt1 V c t.val t.isLt).1 (ix2 s q) = (outsAt1 V c n hlt).1 (ix2 s q) := by
  rw [outsAt1_B V c t h0, outsAt1_congr V c (show t.val - 1 = n by omega) _ hlt]
  dsimp only
  exact B3_rest (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c n hlt).1 (outsAt1 V c n hlt).2 s hs q

theorem B4_at0 (c : Dev nD) (t : Fin cfg1.N) (h0 : ¬t.val % 32 = 0) (n : ℕ) (hn : n + 1 = t.val) (hlt : n < cfg1.N)
    (s : Fin 8) (hs : s.val = 0) (q : Fin 1000) :
    (outsAt1 V c t.val t.isLt).2 (ix2 s q)
      = (outsAt1 V c n hlt).2 (ix2 s q) + Hug.psum (featBlk V c t) (wBlk V c t) (tgtBlk V c t) q := by
  obtain rfl : s = (0 : Fin 8) := Fin.ext hs
  rw [outsAt1_B V c t h0, outsAt1_congr V c (show t.val - 1 = n by omega) _ hlt]
  dsimp only
  refine (B4_row0 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c n hlt).1 (outsAt1 V c n hlt).2 q).trans ?_
  refine (KPay1.acc_apply (k1_pay5 (F := Ideal) (featBlk V c t) (wBlk V c t) (tgtBlk V c t)) (View.ld (outsAt1 V c n hlt).2 row0) q).trans ?_
  rw [KPay1.dsum_apply]
  exact congrArg (· + Hug.psum (featBlk V c t) (wBlk V c t) (tgtBlk V c t) q) (congrArg (outsAt1 V c n hlt).2 (row0_idx q))

theorem B4_atS (c : Dev nD) (t : Fin cfg1.N) (h0 : ¬t.val % 32 = 0) (n : ℕ) (hn : n + 1 = t.val) (hlt : n < cfg1.N)
    (s : Fin 8) (hs : s.val ≠ 0) (q : Fin 1000) :
    (outsAt1 V c t.val t.isLt).2 (ix2 s q) = (outsAt1 V c n hlt).2 (ix2 s q) := by
  rw [outsAt1_B V c t h0, outsAt1_congr V c (show t.val - 1 = n by omega) _ hlt]
  dsimp only
  exact B4_rest (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c n hlt).1 (outsAt1 V c n hlt).2 s hs q

end AtPointB

/-! ## The carried blocks after step k of half o: zero plus the steps' contributions in row 0, zero below -/

section Halves

variable (V : (c : Dev nD) → (b : Ref sig .tc) → Buf (Elt Ideal) ((c : Thread nD τ).loc b))

theorem pt_lt (o : Fin 2) (k : ℕ) (hk : k < 32) : 32 * o.val + k < cfg1.N := by
  have h : cfg1.N = 64 := N_1
  have := o.isLt; omega

/-- What step i of half o adds to the count of class q (nothing from step 32 on). -/
def cterm (c : Dev nD) (o : Fin 2) (q : Fin 1000) (i : ℕ) : EReal :=
  if h : i < 32 then Hug.pcount (tgtBlk V c (pt o ⟨i, h⟩)) q else 0

/-- What step i of half o adds to the summed distances of class q (nothing from step 32 on). -/
def sterm (c : Dev nD) (o : Fin 2) (q : Fin 1000) (i : ℕ) : EReal :=
  if h : i < 32 then Hug.psum (featBlk V c (pt o ⟨i, h⟩)) (wBlk V c (pt o ⟨i, h⟩)) (tgtBlk V c (pt o ⟨i, h⟩)) q else 0

theorem cnt_inv (c : Dev nD) (o : Fin 2) (s : Fin 8) (q : Fin 1000) :
    ∀ (k : ℕ) (hk : k < 32),
      (outsAt1 V c (32 * o.val + k) (pt_lt o k hk)).1 (ix2 s q)
        = if s.val = 0 then Hug.zeroF + ∑ i ∈ Finset.range (k + 1), cterm V c o q i else Hug.zeroF
  | 0, hk => by
    have h0 : (⟨32 * o.val + 0, pt_lt o 0 hk⟩ : Fin cfg1.N).val % 32 = 0 := by show (32 * o.val + 0) % 32 = 0; omega
    by_cases hs : s.val = 0
    · rw [if_pos hs, Finset.sum_range_one]
      refine (A3_at0 V c ⟨32 * o.val + 0, pt_lt o 0 hk⟩ h0 s hs q).trans ?_
      unfold cterm; rw [dif_pos hk]; rfl
    · rw [if_neg hs]
      exact A3_atS V c ⟨32 * o.val + 0, pt_lt o 0 hk⟩ h0 s hs q
  | k + 1, hk => by
    have h0 : ¬(⟨32 * o.val + (k + 1), pt_lt o (k + 1) hk⟩ : Fin cfg1.N).val % 32 = 0 := by
      show ¬(32 * o.val + (k + 1)) % 32 = 0; omega
    have ih := cnt_inv c o s q k (Nat.lt_of_succ_lt hk)
    by_cases hs : s.val = 0
    · rw [if_pos hs] at ih ⊢
      refine (B3_at0 V c ⟨32 * o.val + (k + 1), pt_lt o (k + 1) hk⟩ h0 (32 * o.val + k) rfl (pt_lt o k (Nat.lt_of_succ_lt hk)) s hs q).trans ?_
      rw [ih, Finset.sum_range_succ _ (k + 1), ← add_assoc Hug.zeroF]
      refine congrArg (fun z => Hug.zeroF + ∑ i ∈ Finset.range (k + 1), cterm V c o q i + z) ?_
      unfold cterm; rw [dif_pos hk]; rfl
    · rw [if_neg hs] at ih ⊢
      exact (B3_atS V c ⟨32 * o.val + (k + 1), pt_lt o (k + 1) hk⟩ h0 (32 * o.val + k) rfl (pt_lt o k (Nat.lt_of_succ_lt hk)) s hs q).trans ih

theorem sum_inv (c : Dev nD) (o : Fin 2) (s : Fin 8) (q : Fin 1000) :
    ∀ (k : ℕ) (hk : k < 32),
      (outsAt1 V c (32 * o.val + k) (pt_lt o k hk)).2 (ix2 s q)
        = if s.val = 0 then Hug.zeroF + ∑ i ∈ Finset.range (k + 1), sterm V c o q i else Hug.zeroF
  | 0, hk => by
    have h0 : (⟨32 * o.val + 0, pt_lt o 0 hk⟩ : Fin cfg1.N).val % 32 = 0 := by show (32 * o.val + 0) % 32 = 0; omega
    by_cases hs : s.val = 0
    · rw [if_pos hs, Finset.sum_range_one]
      refine (A4_at0 V c ⟨32 * o.val + 0, pt_lt o 0 hk⟩ h0 s hs q).trans ?_
      unfold sterm; rw [dif_pos hk]; rfl
    · rw [if_neg hs]
      exact A4_atS V c ⟨32 * o.val + 0, pt_lt o 0 hk⟩ h0 s hs q
  | k + 1, hk => by
    have h0 : ¬(⟨32 * o.val + (k + 1), pt_lt o (k + 1) hk⟩ : Fin cfg1.N).val % 32 = 0 := by
      show ¬(32 * o.val + (k + 1)) % 32 = 0; omega
    have ih := sum_inv c o s q k (Nat.lt_of_succ_lt hk)
    by_cases hs : s.val = 0
    · rw [if_pos hs] at ih ⊢
      refine (B4_at0 V c ⟨32 * o.val + (k + 1), pt_lt o (k + 1) hk⟩ h0 (32 * o.val + k) rfl (pt_lt o k (Nat.lt_of_succ_lt hk)) s hs q).trans ?_
      rw [ih, Finset.sum_range_succ _ (k + 1), ← add_assoc Hug.zeroF]
      refine congrArg (fun z => Hug.zeroF + ∑ i ∈ Finset.range (k + 1), sterm V c o q i + z) ?_
      unfold sterm; rw [dif_pos hk]; rfl
    · rw [if_neg hs] at ih ⊢
      exact (B4_atS V c ⟨32 * o.val + (k + 1), pt_lt o (k + 1) hk⟩ h0 (32 * o.val + k) rfl (pt_lt o k (Nat.lt_of_succ_lt hk)) s hs q).trans ih

/-- The thirty-two contributions of half o, as the sum over the steps. -/
theorem cterm_sum (c : Dev nD) (o : Fin 2) (q : Fin 1000) :
    ∑ i ∈ Finset.range 32, cterm V c o q i = ∑ i : Fin 32, Hug.pcount (tgtBlk V c (pt o i)) q :=
  (Fin.sum_univ_eq_sum_range (cterm V c o q) 32).symm.trans
    (Finset.sum_congr rfl fun i _ => by unfold cterm; rw [dif_pos i.isLt])

theorem sterm_sum (c : Dev nD) (o : Fin 2) (q : Fin 1000) :
    ∑ i ∈ Finset.range 32, sterm V c o q i
      = ∑ i : Fin 32, Hug.psum (featBlk V c (pt o i)) (wBlk V c (pt o i)) (tgtBlk V c (pt o i)) q :=
  (Fin.sum_univ_eq_sum_range (sterm V c o q) 32).symm.trans
    (Finset.sum_congr rfl fun i _ => by unfold sterm; rw [dif_pos i.isLt])

end Halves

/-! ## From the carried blocks to the two result arrays -/

section Final

variable (V : (c : Dev nD) → (b : Ref sig .tc) → Buf (Elt Ideal) ((c : Thread nD τ).loc b))

/-- The block of eight result rows that point t holds is block t / 32, for both outputs. -/
theorem idx3 : ∀ t : Fin cfg1.N, win1_3.index t 0 = t.val / 32 ∧ win1_3.index t 1 = 0 :=
  (by decide +kernel : ∀ t : Fin grid1.N, win1_3.index t 0 = t.val / 32 ∧ win1_3.index t 1 = 0)
theorem idx4 : ∀ t : Fin cfg1.N, win1_4.index t 0 = t.val / 32 ∧ win1_4.index t 1 = 0 :=
  (by decide +kernel : ∀ t : Fin grid1.N, win1_4.index t 0 = t.val / 32 ∧ win1_4.index t 1 = 0)

/-- Row 8 o + s of the counts, column q. -/
def cntRow (c : Dev nD) (o : Fin 2) (s : Fin 8) (q : Fin 1000) : EReal :=
  if s.val = 0 then Hug.zeroF + ∑ i : Fin 32, Hug.pcount (tgtBlk V c (pt o i)) q else Hug.zeroF

/-- Row 8 o + s of the summed distances, column q. -/
def sumRow (c : Dev nD) (o : Fin 2) (s : Fin 8) (q : Fin 1000) : EReal :=
  if s.val = 0 then Hug.zeroF + ∑ i : Fin 32, Hug.psum (featBlk V c (pt o i)) (wBlk V c (pt o i)) (tgtBlk V c (pt o i)) q
  else Hug.zeroF

/-- The sixteen rows of counts as one array: row r is row r % 8 of half r / 8. -/
def cntG (c : Dev nD) : Vec Ideal S16x1000 .f32 := fun j =>
  cntRow V c ⟨(j 0).val / 8, by have := idx2_lt0 j; omega⟩ ⟨(j 0).val % 8, Nat.mod_lt _ (by decide)⟩ (j 1)

def sumG (c : Dev nD) : Vec Ideal S16x1000 .f32 := fun j =>
  sumRow V c ⟨(j 0).val / 8, by have := idx2_lt0 j; omega⟩ ⟨(j 0).val % 8, Nat.mod_lt _ (by decide)⟩ (j 1)

theorem cntG_apply (c : Dev nD) (o : Fin 2) (s : Fin 8) (q : Fin 1000) : cntG V c (ix2 (row16 o s) q) = cntRow V c o s q := by
  have eo : (⟨(row16 o s).val / 8, by have := (row16 o s).isLt; omega⟩ : Fin 2) = o :=
    Fin.ext (by show (8 * o.val + s.val) / 8 = o.val; have := s.isLt; omega)
  have es : (⟨(row16 o s).val % 8, Nat.mod_lt _ (by decide)⟩ : Fin 8) = s :=
    Fin.ext (by show (8 * o.val + s.val) % 8 = s.val; have := s.isLt; omega)
  show cntRow V c ⟨(row16 o s).val / 8, _⟩ ⟨(row16 o s).val % 8, _⟩ q = _
  rw [eo, es]

theorem sumG_apply (c : Dev nD) (o : Fin 2) (s : Fin 8) (q : Fin 1000) : sumG V c (ix2 (row16 o s) q) = sumRow V c o s q := by
  have eo : (⟨(row16 o s).val / 8, by have := (row16 o s).isLt; omega⟩ : Fin 2) = o :=
    Fin.ext (by show (8 * o.val + s.val) / 8 = o.val; have := s.isLt; omega)
  have es : (⟨(row16 o s).val % 8, Nat.mod_lt _ (by decide)⟩ : Fin 8) = s :=
    Fin.ext (by show (8 * o.val + s.val) % 8 = s.val; have := s.isLt; omega)
  show sumRow V c ⟨(row16 o s).val / 8, _⟩ ⟨(row16 o s).val % 8, _⟩ q = _
  rw [eo, es]

/-- What the half's last step leaves is what is written back: the block read out of the array of sixteen rows. -/
theorem flushed_eq3 (c : Dev nD) (t : Fin cfg1.N) (hf : (cfg1.win 3).flush t = true) :
    (dat1 V c).flushed 3 t = ((cfg1.win 3).blk t).view.read (Elt Ideal) (cntG V c) := by
  have hN : cfg1.N = 64 := N_1
  have h31 : t.val % 32 = 31 := (flush1_3 t).mp hf
  have htlt := t.isLt
  have hi := idx3 t
  funext y
  obtain ⟨s, q, rfl⟩ : ∃ (s : Fin 8) (q : Fin 1000), y = ix2 s q := ⟨y 0, y 1, eq_ix2 y⟩
  rw [View.read_apply]
  have e0 : (cfg1.win 3).xinj (grid1.coords t) (ix2 s q) = ix2 s q :=
    funext fun a => match a with | ⟨0, _⟩ => rfl | ⟨1, _⟩ => rfl
  have e1 : ((cfg1.win 3).blk t).view.emb (ix2 s q) = ix2 (row16 ⟨t.val / 32, by omega⟩ s) q := by
    funext a; apply Fin.ext
    match a with
    | ⟨0, _⟩ => show win1_3.index t 0 * 8 + 1 * s.val = 8 * (t.val / 32) + s.val; rw [hi.1]; omega
    | ⟨1, _⟩ => show win1_3.index t 1 * 1000 + 1 * q.val = q.val; rw [hi.2]; omega
  show (dat1 V c).after 3 t ((cfg1.win 3).xinj (grid1.coords t) (ix2 s q)) = cntG V c (((cfg1.win 3).blk t).view.emb (ix2 s q))
  rw [e0, e1, after1_3, cntG_apply,
    outsAt1_congr V c (show t.val = 32 * (t.val / 32) + 31 by omega) t.isLt (pt_lt ⟨t.val / 32, by omega⟩ 31 (by decide))]
  refine (cnt_inv V c ⟨t.val / 32, by omega⟩ s q 31 (by decide)).trans ?_
  show (if s.val = 0 then Hug.zeroF + ∑ i ∈ Finset.range 32, cterm V c ⟨t.val / 32, by omega⟩ q i else Hug.zeroF) = _
  rw [cterm_sum]
  rfl

/-- Every row of the sixteen is in the block some half's last step writes back. -/
theorem final3 (c : Dev nD) : (dat1 V c).arrAt 3 cfg1.N = cntG V c :=
  (dat1 V c).arrAt_eq_of_cover 3 (cntG V c) (flushed_eq3 V c) fun i => by
    have hN : cfg1.N = 64 := N_1
    have h0 : (i 0 : Nat) < 16 := (i 0).isLt
    have h1 : (i 1 : Nat) < 1000 := (i 1).isLt
    have hlt : 32 * ((i 0 : Nat) / 8) + 31 < cfg1.N := by omega
    have hi := idx3 ⟨32 * ((i 0 : Nat) / 8) + 31, hlt⟩
    refine ⟨⟨32 * ((i 0 : Nat) / 8) + 31, hlt⟩, (flush1_3 _).mpr (by show (32 * ((i 0 : Nat) / 8) + 31) % 32 = 31; omega), ?_⟩
    show i ∈ ((View.whole main_v4_0).slice (win1_3.rect ⟨32 * ((i 0 : Nat) / 8) + 31, hlt⟩)).set
    rw [View.set_slice_whole, Rect.mem_set_unit]
    intro a
    match a with
    | ⟨0, _⟩ =>
      show win1_3.index ⟨32 * ((i 0 : Nat) / 8) + 31, hlt⟩ 0 * 8 ≤ (i 0 : Nat) ∧ (i 0 : Nat) < win1_3.index ⟨32 * ((i 0 : Nat) / 8) + 31, hlt⟩ 0 * 8 + 8
      rw [hi.1]; dsimp only; omega
    | ⟨1, _⟩ =>
      show win1_3.index ⟨32 * ((i 0 : Nat) / 8) + 31, hlt⟩ 1 * 1000 ≤ (i 1 : Nat) ∧ (i 1 : Nat) < win1_3.index ⟨32 * ((i 0 : Nat) / 8) + 31, hlt⟩ 1 * 1000 + 1000
      rw [hi.2]; omega

theorem cnt_apply' (c : Dev nD) (o : Fin 2) (s : Fin 8) (q : Fin 1000) :
    ((dat1 (F := Ideal) V c).arrAt 3 cfg1.N : Vec Ideal S16x1000 .f32) (ix2 (row16 o s) q)
      = if s.val = 0 then Hug.zeroF + ∑ i : Fin 32, Hug.pcount (tgtBlk V c (pt o i)) q else Hug.zeroF :=
  (congrFun (final3 V c) (ix2 (row16 o s) q)).trans (cntG_apply V c o s q)

/-- The same for the summed distances. -/
theorem flushed_eq4 (c : Dev nD) (t : Fin cfg1.N) (hf : (cfg1.win 4).flush t = true) :
    (dat1 V c).flushed 4 t = ((cfg1.win 4).blk t).view.read (Elt Ideal) (sumG V c) := by
  have hN : cfg1.N = 64 := N_1
  have h31 : t.val % 32 = 31 := (flush1_4 t).mp hf
  have htlt := t.isLt
  have hi := idx4 t
  funext y
  obtain ⟨s, q, rfl⟩ : ∃ (s : Fin 8) (q : Fin 1000), y = ix2 s q := ⟨y 0, y 1, eq_ix2 y⟩
  rw [View.read_apply]
  have e0 : (cfg1.win 4).xinj (grid1.coords t) (ix2 s q) = ix2 s q :=
    funext fun a => match a with | ⟨0, _⟩ => rfl | ⟨1, _⟩ => rfl
  have e1 : ((cfg1.win 4).blk t).view.emb (ix2 s q) = ix2 (row16 ⟨t.val / 32, by omega⟩ s) q := by
    funext a; apply Fin.ext
    match a with
    | ⟨0, _⟩ => show win1_4.index t 0 * 8 + 1 * s.val = 8 * (t.val / 32) + s.val; rw [hi.1]; omega
    | ⟨1, _⟩ => show win1_4.index t 1 * 1000 + 1 * q.val = q.val; rw [hi.2]; omega
  show (dat1 V c).after 4 t ((cfg1.win 4).xinj (grid1.coords t) (ix2 s q)) = sumG V c (((cfg1.win 4).blk t).view.emb (ix2 s q))
  rw [e0, e1, after1_4, sumG_apply,
    outsAt1_congr V c (show t.val = 32 * (t.val / 32) + 31 by omega) t.isLt (pt_lt ⟨t.val / 32, by omega⟩ 31 (by decide))]
  refine (sum_inv V c ⟨t.val / 32, by omega⟩ s q 31 (by decide)).trans ?_
  show (if s.val = 0 then Hug.zeroF + ∑ i ∈ Finset.range 32, sterm V c ⟨t.val / 32, by omega⟩ q i else Hug.zeroF) = _
  rw [sterm_sum]
  rfl

theorem final4 (c : Dev nD) : (dat1 V c).arrAt 4 cfg1.N = sumG V c :=
  (dat1 V c).arrAt_eq_of_cover 4 (sumG V c) (flushed_eq4 V c) fun i => by
    have hN : cfg1.N = 64 := N_1
    have h0 : (i 0 : Nat) < 16 := (i 0).isLt
    have h1 : (i 1 : Nat) < 1000 := (i 1).isLt
    have hlt : 32 * ((i 0 : Nat) / 8) + 31 < cfg1.N := by omega
    have hi := idx4 ⟨32 * ((i 0 : Nat) / 8) + 31, hlt⟩
    refine ⟨⟨32 * ((i 0 : Nat) / 8) + 31, hlt⟩, (flush1_4 _).mpr (by show (32 * ((i 0 : Nat) / 8) + 31) % 32 = 31; omega), ?_⟩
    show i ∈ ((View.whole main_v4_1).slice (win1_4.rect ⟨32 * ((i 0 : Nat) / 8) + 31, hlt⟩)).set
    rw [View.set_slice_whole, Rect.mem_set_unit]
    intro a
    match a with
    | ⟨0, _⟩ =>
      show win1_4.index ⟨32 * ((i 0 : Nat) / 8) + 31, hlt⟩ 0 * 8 ≤ (i 0 : Nat) ∧ (i 0 : Nat) < win1_4.index ⟨32 * ((i 0 : Nat) / 8) + 31, hlt⟩ 0 * 8 + 8
      rw [hi.1]; dsimp only; omega
    | ⟨1, _⟩ =>
      show win1_4.index ⟨32 * ((i 0 : Nat) / 8) + 31, hlt⟩ 1 * 1000 ≤ (i 1 : Nat) ∧ (i 1 : Nat) < win1_4.index ⟨32 * ((i 0 : Nat) / 8) + 31, hlt⟩ 1 * 1000 + 1000
      rw [hi.2]; omega

theorem sum_apply' (c : Dev nD) (o : Fin 2) (s : Fin 8) (q : Fin 1000) :
    ((dat1 (F := Ideal) V c).arrAt 4 cfg1.N : Vec Ideal S16x1000 .f32) (ix2 (row16 o s) q)
      = if s.val = 0 then Hug.zeroF + ∑ i : Fin 32, Hug.psum (featBlk V c (pt o i)) (wBlk V c (pt o i)) (tgtBlk V c (pt o i)) q else Hug.zeroF :=
  (congrFun (final4 V c) (ix2 (row16 o s) q)).trans (sumG_apply V c o s q)

end Final

end Carry

variable (V : (c : Dev nD) → (b : Ref sig .tc) → Buf (Elt Ideal) ((c : Thread nD τ).loc b))

theorem cnt_apply (c : Dev nD) (o : Fin 2) (s : Fin 8) (q : Fin 1000) :
    ((dat1 (F := Ideal) V c).arrAt 3 cfg1.N : Vec Ideal S16x1000 .f32) (ix2 (row16 o s) q)
      = if s.val = 0 then Hug.zeroF + ∑ i : Fin 32, Hug.pcount (tgtBlk V c (pt o i)) q else Hug.zeroF :=
  Carry.cnt_apply' V c o s q

theorem sum_apply (c : Dev nD) (o : Fin 2) (s : Fin 8) (q : Fin 1000) :
    ((dat1 (F := Ideal) V c).arrAt 4 cfg1.N : Vec Ideal S16x1000 .f32) (ix2 (row16 o s) q)
      = if s.val = 0 then Hug.zeroF + ∑ i : Fin 32, Hug.psum (featBlk V c (pt o i)) (wBlk V c (pt o i)) (tgtBlk V c (pt o i)) q
        else Hug.zeroF :=
  Carry.sum_apply' V c o s q

end Cert.KernelIdeal.KReg1

end
-- ==== Proof.KHost.lean ====
/-
  The host operations around the two kernels, read back: what the second kernel finds in its three operand arrays, and
  what the last stretch leaves in the two scalar results as functions of the kernels' result arrays.
-/
import proofs.«416468_j35811437314877_2_alg».proof.Proof.KNames
import proofs.«416468_j35811437314877_2_alg».proof.Proof.Tail
import Idealize.ShloMosaic.Lib.StableHlo.Run

set_option maxRecDepth 16384

noncomputable section

open scoped BigOperators

namespace Cert.KernelIdeal.KHost

open Cert.KernelIdeal Cert.KernelIdeal.Gen Cert.KernelIdeal.KNames
open Idealize.ShloMosaic Idealize.ShloMosaic.TcCoe Idealize.ShloMosaic.ValueIdx Idealize.SL.Sem
open Idealize.ShloMosaic.StableHlo

variable {F : FTy → Type} [FloatOps F]
variable (m : (ℓ : Loc nD τ sig) → Buf (Elt F) ℓ) (ρ : Dev nD → PrngReg)

/-- The second kernel reads the feature matrix as launched, -/
theorem v2_feat (c : Dev nD) : (V2 m ρ c main_arg0 : Vec F S131072x512 .f32) = featArr m c := by
  -- no operation of the first host stretch writes the feature matrix, and it is no array of the first kernel
  show StableHlo.after hostOps1 _ (Proc.devRef .tc main_arg0) = _
  after_results
  exact W1_of_ne m ρ c main_arg0 (by decide)

/-- the table the first kernel left, -/
theorem v2_wbf (c : Dev nD) : (V2 m ρ c main_v0_0 : Vec F S1000x512 .bf16) = wbfArr m ρ c := by
  -- no operation of the first host stretch writes the table; it is the first kernel's second array
  show StableHlo.after hostOps1 _ (Proc.devRef .tc main_v0_0) = _
  after_results
  exact W1_arr m ρ c 1

/-- and the labels laid out as a column. -/
theorem v2_tgt (c : Dev nD) :
    (V2 m ρ c main_v3 : Vec F S131072x1 .i32) = shapeCast S131072x1 (tgtArr m c) shapeCasts_S131072_S131072x1 := by
  -- the last operation of the first host stretch is the reshape of the labels, which nothing before it writes
  show StableHlo.after hostOps1 _ (Proc.devRef .tc main_v3) = _
  after_results
  rw [W1_of_ne m ρ c main_arg2 (by decide)]
  rfl

/-- The weight result: the first kernel's one entry as a scalar, times the unit weight. -/
theorem w6_ww (c : Dev nD) :
    (W6 m ρ c (Proc.devRef .tc main_v2) : Vec F S_ .f32)
      = mulf (shapeCast S_ (wwArr m ρ c) shapeCasts_S1x1_S_) (constant S_ .f32 0x3F800000#32) := by
  -- nothing after the first host stretch writes this scalar, and it is no array of the second kernel;
  -- in the first stretch it is the product of the reshaped one-entry array with the constant
  show StableHlo.after hostOps2_2 _ (Proc.devRef .tc main_v2) = _
  after_results
  rw [W3_of_ne m ρ c main_v2 (by decide)]
  show StableHlo.after hostOps1 _ (Proc.devRef .tc main_v2) = _
  after_results
  rw [W1_arr m ρ c 2]
  rfl

end Cert.KernelIdeal.KHost

namespace Cert.KernelIdeal.KHost

open Cert.KernelIdeal Cert.KernelIdeal.Gen Cert.KernelIdeal.KNames
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The per-class totals the host takes from sixteen rows: the rows regrouped as 2 by 8 and summed over both. -/
abbrev total16 (A : Vec Ideal S16x1000 .f32) : FVec Ideal S1000 .f32 :=
  Host.reduceAdd (F := Ideal) (shapeCast S2x8x1000 (A : FVec Ideal S16x1000 .f32) shapeCasts_S16x1000_S2x8x1000)
    (constant (F := Ideal) S_ .f32 0x00000000#32) reducesTo_S2x8x1000_S1000_d0_1 h_S_

/-- The sample result: the shared closing arithmetic of the per-class totals of the two sixteen-row arrays. -/
theorem w6_sw (c : Dev nD) :
    (W6 (F := Ideal) m ρ c (Proc.devRef .tc main_v20) : Vec Ideal S_ .f32)
      = Hug.tail (total16 (cntArr m ρ c)) (total16 (sumArr m ρ c)) := by
  -- the last three stretches read back operation by operation down to the second kernel's two result arrays,
  -- which are its fourth and fifth arrays; what is left is the closing arithmetic word for word
  show StableHlo.after hostOps2_2 _ (Proc.devRef .tc main_v20) = _
  after_results_simp
  rw [show W3 m ρ c (Proc.devRef .tc main_v4_0) = cntArr m ρ c from W3_arr m ρ c 3,
    show W3 m ρ c (Proc.devRef .tc main_v4_1) = sumArr m ρ c from W3_arr m ρ c 4]
  rfl

end Cert.KernelIdeal.KHost

end
-- ==== Proof.KValue.lean ====
/-
  The kernel program's two scalar results as the specification's quantities of the three arguments.

  The weight result is the first kernel's one entry times the unit weight. For the sample result the host regroups each
  sixteen-row array as 2 by 8 rows and sums over both: of a half's eight rows only the first is not zero, and it holds
  the half's 32 block contributions, so a class's total is the sum over the 64 blocks of that class's count (or summed
  distances) within the block, which is the count (or the sum) over all 131072 samples.
-/
import proofs.«416468_j35811437314877_2_alg».proof.Proof.KNames
import proofs.«416468_j35811437314877_2_alg».proof.Proof.KPay0
import proofs.«416468_j35811437314877_2_alg».proof.Proof.KReg0
import proofs.«416468_j35811437314877_2_alg».proof.Proof.KReg1
import proofs.«416468_j35811437314877_2_alg».proof.Proof.KBlocks
import proofs.«416468_j35811437314877_2_alg».proof.Proof.KHost
import proofs.«416468_j35811437314877_2_alg».proof.Proof.SpecAlg
import Idealize.ShloMosaic.Lib.Pipeline.Value
import Idealize.ShloMosaic.Lib.IdealHost
import Idealize.ShloMosaic.Lib.ValueLayout

set_option maxRecDepth 16384

noncomputable section

open scoped BigOperators

namespace Cert.KernelIdeal.KValue

open Cert.KernelIdeal Cert.KernelIdeal.Gen Cert.KernelIdeal.KNames
open Idealize.ShloMosaic Idealize.ShloMosaic.TcCoe Idealize.ShloMosaic.ValueIdx Idealize.SL.Sem
open Cert.KernelIdeal.KHost

variable (m : (ℓ : Loc nD τ sig) → Buf (Elt Ideal) ℓ) (ρ : Dev nD → PrngReg)

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Entry (o, s, q) of sixteen rows regrouped as 2 by 8 is entry (8 o + s, q). -/
theorem regroup_apply (A : FVec Ideal S16x1000 .f32) (o : Fin 2) (s : Fin 8) (q : Fin 1000) :
    shapeCast S2x8x1000 A shapeCasts_S16x1000_S2x8x1000 (ix3 o s q) = A (ix2 (row16 o s) q) := by
  refine shapeCast_apply A _ _ _ ?_
  rw [Shape.rowMajor_val_three, Shape.rowMajor_val_two]
  show (8 * o.val + s.val) * 1000 + q.val = (o.val * 8 + s.val) * 1000 + q.val
  ring

theorem total16_apply (A : Vec Ideal S16x1000 .f32) (q : Fin 1000) :
    total16 A (ix1 q) = Hug.zeroF + ∑ o : Fin 2, ∑ s : Fin 8, A (ix2 (row16 o s) q) := by
  show Host.reduceAdd (F := Ideal) _ _ _ _ (ix1 q) = _
  rw [hostReduceAdd_apply]
  unfold Ideal.hostReduceAdd
  refine congrArg₂ (· + ·) rfl ?_
  rw [Finset.sum_filter, sum_idx3]
  refine Finset.sum_congr rfl fun o _ => Finset.sum_congr rfl fun s _ => ?_
  rw [Finset.sum_eq_single q]
  · rw [if_pos, regroup_apply]
    funext b
    match b with
    | ⟨0, _⟩ => exact Fin.ext (Shape.ReducesTo.drop_apply_val_of_eq reducesTo_S2x8x1000_S1000_d0_1 (ix3 o s q) (0 : Fin 1) (2 : Fin 3))
  · intro r _ hr
    rw [if_neg]
    intro h
    apply hr
    have := congrArg (fun j => (j (0 : Fin 1)).val) h
    exact Fin.ext ((Shape.ReducesTo.drop_apply_val_of_eq reducesTo_S2x8x1000_S1000_d0_1 (ix3 o s r) (0 : Fin 1) (2 : Fin 3)).symm.trans this)
  · intro h; exact absurd (Finset.mem_univ q) h

/-! ## The second kernel's blocks, at the arrays it finds, are the specification's blocks of the arguments -/

theorem tgtBlk_eq (c : Dev nD) (t : Fin cfg1.N) : tgtBlk (V2 m ρ) c t = Hug.blkT (tgtArr m c) (t64 t) := by
  funext j
  obtain ⟨n, z, rfl⟩ : ∃ (n : Fin 2048) (z : Fin 1), j = ix2 n z := ⟨j 0, j 1, eq_ix2 j⟩
  obtain rfl : z = 0 := Subsingleton.elim _ _
  rw [KBlocks.tgtBlk_apply, v2_tgt]
  refine shapeCast_apply _ _ _ (ix1 (Hug.rowOf (t64 t) n)) ?_
  rw [Shape.rowMajor_val_one, Shape.rowMajor_val_two]
  show (Hug.rowOf (t64 t) n).val = (Hug.rowOf (t64 t) n).val * 1 + 0
  omega

theorem featBlk_eq (c : Dev nD) (t : Fin cfg1.N) : featBlk (V2 m ρ) c t = Hug.blkX (featArr m c) (t64 t) := by
  funext j
  obtain ⟨n, d, rfl⟩ : ∃ (n : Fin 2048) (d : Fin 512), j = ix2 n d := ⟨j 0, j 1, eq_ix2 j⟩
  rw [KBlocks.featBlk_apply, v2_feat]
  rfl

theorem wBlk_eq (c : Dev nD) (t : Fin cfg1.N) : wBlk (V2 m ρ) c t = Hug.unitMat (clsArr m c) := by
  funext j
  obtain ⟨i, d, rfl⟩ : ∃ (i : Fin 1000) (d : Fin 512), j = ix2 i d := ⟨j 0, j 1, eq_ix2 j⟩
  rw [KBlocks.wBlk_apply, v2_wbf, KReg0.wbf_eq, KPay0.wrow_apply]
  rfl

/-! ## The two scalar results -/

/-- Multiplying a scalar array by the array of the float word of 1, at its one index. -/
theorem mulf_oneWord_apply (a : FVec Ideal S_ .f32) (i : S_.Idx) :
    mulf a (constant (F := Ideal) S_ .f32 0x3F800000#32) i = a i * Hug.oneF := rfl

/-- A one-by-one array recast as a scalar reads its one entry. -/
theorem scalarOf_apply (a : FVec Ideal S1x1 .f32) (i : S_.Idx) :
    shapeCast S_ a shapeCasts_S1x1_S_ i = a (ix2 (0 : Fin 1) (0 : Fin 1)) :=
  shapeCast_apply _ _ _ _ (by
    have h1 := (Shape.rowMajor S1x1 (ix2 (0 : Fin 1) (0 : Fin 1))).isLt
    have h2 := (Shape.rowMajor S_ i).isLt
    have e1 : S1x1.numel = 1 := by decide
    have e2 : S_.numel = 1 := by decide
    omega)

theorem kernel_ww (c : Dev nD) :
    (W6 (F := Ideal) m ρ c (Proc.devRef .tc main_v2) : Vec Ideal S_ .f32) = fun _ => Hug.weightWise (clsArr m c) := by
  refine (w6_ww m ρ c).trans ?_
  funext i
  refine (mulf_oneWord_apply _ i).trans ?_
  have e : shapeCast S_ (wwArr m ρ c) shapeCasts_S1x1_S_ i = Ideal.div (Hug.wwNum (clsArr m c)) (Hug.wwDen (clsArr m c)) :=
    (scalarOf_apply _ i).trans ((congrFun (KReg0.ww_eq m ρ c) _).trans (KPay0.ww_apply (clsArr m c)))
  rw [e]
  unfold Hug.weightWise
  exact Eq.refl _

/-- Grid point 32 o + i, as a number below 64. -/
theorem t64_pt (o : Fin 2) (i : Fin 32) :
    t64 (pt o i) = ⟨32 * o.val + i.val, by have := o.isLt; have := i.isLt; omega⟩ := rfl

/-- Of a half's eight rows only the first is not zero. -/
theorem firstRow_sum (X : EReal) (f : Fin 8 → EReal)
    (h : ∀ s : Fin 8, f s = if s.val = 0 then Hug.zeroF + X else Hug.zeroF) : ∑ s : Fin 8, f s = X := by
  rw [Finset.sum_eq_single (0 : Fin 8)]
  · rw [h 0, if_pos (show ((0 : Fin 8) : ℕ) = 0 from rfl), Hug.zeroF_eq, zero_add]
  · intro s _ hs
    rw [h s, if_neg (show ¬ (s : ℕ) = 0 from fun e => hs (Fin.ext e)), Hug.zeroF_eq]
  · intro h0; exact absurd (Finset.mem_univ _) h0

theorem kernel_cnt (c : Dev nD) : total16 (cntArr m ρ c) = fun j => Hug.counts (tgtArr m c) (j 0) := by
  funext j
  obtain ⟨q, rfl⟩ : ∃ q : Fin 1000, j = ix1 q := ⟨j 0, eq_ix1 j⟩
  refine (total16_apply _ q).trans ?_
  refine Eq.trans ?_ ((Hug.counts_blocks (tgtArr m c) q).trans (Hug.sum_halves _)).symm
  rw [Hug.zeroF_eq, zero_add]
  refine Finset.sum_congr rfl fun o _ => ?_
  refine (firstRow_sum _ _ (fun s => KReg1.cnt_apply (V2 m ρ) c o s q)).trans ?_
  refine Finset.sum_congr rfl fun i _ => ?_
  rw [tgtBlk_eq, t64_pt]

theorem kernel_sum (c : Dev nD) :
    total16 (sumArr m ρ c) = fun j => Hug.sums (featArr m c) (clsArr m c) (tgtArr m c) (j 0) := by
  funext j
  obtain ⟨q, rfl⟩ : ∃ q : Fin 1000, j = ix1 q := ⟨j 0, eq_ix1 j⟩
  refine (total16_apply _ q).trans ?_
  refine Eq.trans ?_ ((Hug.sums_blocks (featArr m c) (clsArr m c) (tgtArr m c) q).trans (Hug.sum_halves _)).symm
  rw [Hug.zeroF_eq, zero_add]
  refine Finset.sum_congr rfl fun o _ => ?_
  refine (firstRow_sum _ _ (fun s => KReg1.sum_apply (V2 m ρ) c o s q)).trans ?_
  refine Finset.sum_congr rfl fun i _ => ?_
  rw [tgtBlk_eq, featBlk_eq, wBlk_eq, t64_pt]

theorem kernel_sw (c : Dev nD) :
    (W6 (F := Ideal) m ρ c (Proc.devRef .tc main_v20) : Vec Ideal S_ .f32)
      = Hug.tail (fun j => Hug.counts (tgtArr m c) (j 0)) (fun j => Hug.sums (featArr m c) (clsArr m c) (tgtArr m c) (j 0)) := by
  rw [w6_sw, kernel_cnt, kernel_sum]

end Cert.KernelIdeal.KValue

end
-- ==== Proof.lean ====
/-
  The certificate's five claims.

  Both programs compute, from a feature matrix x (131072 x 512), a class-weight matrix cl (1000 x 512) and labels T:
  the mean over the occurring classes of each class's mean distance between its samples' normalised rows and the
  class's normalised weight row, and the mean reciprocal squared distance between distinct normalised weight rows
  over the pairs i < j at positive distance; the third result is x itself.

  The kernel program adds the per-class counts and summed distances block by block (64 blocks of 2048 samples, in two
  halves of 32, each half into its own eight result rows) and picks a sample's class row by a one-hot product; the
  reference adds them by two accumulating scatters over all samples at once and picks the row by a gather. A label
  outside 0..999 matches no class in the one-hot compare and lands nowhere in the scatters. All sums are finite sums in
  the extended reals, a commutative monoid under addition, and 0 * y = 0, 1 * y = y for every extended real y: no
  finiteness of the inputs is used. The closing host arithmetic is the same operations on both sides.
-/
import proofs.«416468_j35811437314877_2_alg».proof.Defs
import proofs.«416468_j35811437314877_2_alg».proof.Proof.Gen.Kernel
import proofs.«416468_j35811437314877_2_alg».proof.Proof.Gen.Kernel.Skeleton
import proofs.«416468_j35811437314877_2_alg».proof.Proof.Gen.Kernel.Launch
import proofs.«416468_j35811437314877_2_alg».proof.Proof.Gen.Kernel.Points
import proofs.«416468_j35811437314877_2_alg».proof.Proof.Gen.Kernel.Frame
import proofs.«416468_j35811437314877_2_alg».proof.Proof.Gen.KernelIdeal
import proofs.«416468_j35811437314877_2_alg».proof.Proof.Gen.KernelIdeal.Skeleton
import proofs.«416468_j35811437314877_2_alg».proof.Proof.Gen.KernelIdeal.Launch
import proofs.«416468_j35811437314877_2_alg».proof.Proof.Gen.KernelIdeal.Points
import proofs.«416468_j35811437314877_2_alg».proof.Proof.Gen.KernelIdeal.Frame
import proofs.«416468_j35811437314877_2_alg».proof.Proof.Gen.ReferenceIdeal
import proofs.«416468_j35811437314877_2_alg».proof.Proof.Gen.Pre_finite_inputs
import proofs.«416468_j35811437314877_2_alg».proof.Proof.RefRun
import proofs.«416468_j35811437314877_2_alg».proof.Proof.RefRead
import proofs.«416468_j35811437314877_2_alg».proof.Proof.RefWW
import proofs.«416468_j35811437314877_2_alg».proof.Proof.RefSW
import proofs.«416468_j35811437314877_2_alg».proof.Proof.KRun
import proofs.«416468_j35811437314877_2_alg».proof.Proof.KValue
import Idealize.ShloMosaic.Adequacy
import Idealize.ShloMosaic.Init

set_option maxRecDepth 16384

noncomputable section

namespace Cert.Proof

open Idealize.ShloMosaic Idealize.SL.Sem

/-- The word-level kernel program runs and keeps its arguments. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference is host operations only: its run, with the results dropped. -/
theorem frame_ri : Cert.frame_ReferenceIdeal := fun m ρ _ =>
  (θ_run Cert.ReferenceIdeal.defs _ _).mono (fun _ h c => ⟨(h c).2.2.1, (h c).2.2.2.2.1, (h c).2.2.2.2.2⟩)
    (Cert.ReferenceIdeal.Value.run (F := Ideal) m ρ)

open Cert.KernelIdeal.KNames in
/-- From memories agreeing on the three arguments both programs end with the specification's two scalars and x. -/
theorem algebraic : Cert.algebraic_KernelIdeal_ReferenceIdeal := by
  intro m ρ m' ρ' _ hagree
  refine ⟨fun c => Hug.tail (fun j => Hug.counts (tgtArr m c) (j 0))
            (fun j => Hug.sums (featArr m c) (clsArr m c) (tgtArr m c) (j 0)),
          fun c => fun _ => Hug.weightWise (clsArr m c),
          fun c => featArr m c, ?_, ?_⟩
  · refine (θ_run Cert.KernelIdeal.defs _ _).mono (fun r h c => ?_) (Cert.KernelIdeal.KRun.run_results (F := Ideal) m ρ)
    obtain ⟨hsw, hww, h0, h1, h2⟩ := h c
    exact ⟨hsw.trans (Cert.KernelIdeal.KValue.kernel_sw m ρ c), hww.trans (Cert.KernelIdeal.KValue.kernel_ww m ρ c),
      h0, h0, h1, h2⟩
  · refine (θ_run Cert.ReferenceIdeal.defs _ _).mono (fun r h c => ?_) (Cert.ReferenceIdeal.Value.run (F := Ideal) m' ρ')
    obtain ⟨hsw, hww, h0, -, h1, h2⟩ := h c
    refine ⟨?_, ?_, h0.trans (hagree c).1, h0, h1, h2⟩
    · rw [hsw, Cert.ReferenceIdeal.Read.val_main_v61_eq, Cert.ReferenceIdeal.RefSW.ref_tail,
        Cert.ReferenceIdeal.RefSW.ref_cnt, Cert.ReferenceIdeal.RefSW.ref_sum, (hagree c).1, (hagree c).2.1, (hagree c).2.2]
    · rw [hww, Cert.ReferenceIdeal.Read.val_main_v62_eq, Cert.ReferenceIdeal.RefWW.ref_ww, (hagree c).2.1]
      beta_reduce
      rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
